-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x128 .f32) (main_arg10 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64 .f32) (main_arg6 : FVec F S64 .f32) (main_arg7 : FVec F S64 .f32) (main_arg8 : FVec F S64 .f32) (main_arg9 : FVec F S64x128 .f32) (main_arg10 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x128 .f32) (main_arg10 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S8000x64 : Shape := ⟨2, ![8000, 64]⟩
abbrev S50000 : Shape := ⟨1, ![50000]⟩
abbrev S50000x1 : Shape := ⟨2, ![50000, 1]⟩
abbrev S1x64 : Shape := ⟨2, ![1, 64]⟩
abbrev S128x64 : Shape := ⟨2, ![128, 64]⟩
abbrev S5000x64 : Shape := ⟨2, ![5000, 64]⟩
abbrev S5000 : Shape := ⟨1, ![5000]⟩
abbrev S5000x1 : Shape := ⟨2, ![5000, 1]⟩
abbrev S5000x128 : Shape := ⟨2, ![5000, 128]⟩

abbrev nBuf : Space → Nat
  | .hbm => 51
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S64x64, .f32⟩
  | .hbm, ⟨25, _⟩ => ⟨S64x64, .f32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S128x64, .f32⟩
  | .hbm, ⟨49, _⟩ => ⟨S64x64, .f32⟩
  | .hbm, ⟨50, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S64x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S128x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S64x64_S64x64_1_0 : S64x64.Transposes [1, 0] S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  transposes_S64x128_S128x64_1_0 : S64x128.Transposes [1, 0] S128x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S5000x64_S5000 : S5000x64.Reduces [1] S5000
  shapeCasts_S5000_S5000x1 : S5000.ShapeCasts S5000x1
  broadcasts_S5000x1_S5000x64 : S5000x1.Broadcasts S5000x64
  broadcasts_S1x64_S5000x64 : S1x64.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S800000x64.size a
  hwx0_3 : ∀ i : grid0.Coords, EltTy.bits .f32 = 32 ∨ (Rect.block (s := S800000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x128 : Shape := ⟨2, ![50000, 128]⟩
abbrev S128x64 : Shape := ⟨2, ![128, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S64x64, .f32⟩
  | .hbm, ⟨25, _⟩ => ⟨S800000x64, .f32⟩
  | .hbm, ⟨26, _⟩ => ⟨S_, .f32⟩
  | .hbm, ⟨27, _⟩ => ⟨S800000x64, .f32⟩
  | .hbm, ⟨28, _⟩ => ⟨S800000x64, .f32⟩
  | .hbm, ⟨29, _⟩ => ⟨S64x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S50000x128, .f32⟩
  | .hbm, ⟨111, _⟩ => ⟨S128x64, .f32⟩
  | .hbm, ⟨112, _⟩ => ⟨S50000x64, .f32⟩
  | .hbm, ⟨113, _⟩ => ⟨S_, .f32⟩
  | .hbm, ⟨114, _⟩ => ⟨S50000x64, .f32⟩
  | .hbm, ⟨115, _⟩ => ⟨S50000x64, .f32⟩
  | .hbm, ⟨116, _⟩ => ⟨S64x64, .f32⟩
  | .hbm, ⟨117, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_cst : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call1_cst : Ref sig .tc := ⟨.hbm, 113, rfl⟩
abbrev main_call1_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S64x64_S64x64_1_0 : S64x64.Transposes [1, 0] S64x64
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostStretches.lean ====
/-
  What the kernel program's host operations compute, around its two kernel regions.

  Before region 0: for every edge the source node's row of `x` is gathered (`gathered`: the edge list's row 0, a negative index
  counted from the end, then a row gather), and the first perceptron's two weight matrices are transposed. Between the regions:
  the messages region 0 wrote are summed per destination node (row 1 of the edge list) and divided by the node's in-degree, at
  least one (`averaged`); the five parameter vectors become `1 × 64` rows and the second perceptron's weights are transposed.
  Each window array of each region is read here as that pure term of @main's arguments (and, for the averaged messages, of the
  array region 0 left): the operations are replayed one by one over the buffer contents, an operation's result at its own buffer
  its function's value, every other buffer untouched. Nothing is evaluated: the gather and the scatters stay closed terms.
-/
import proofs.«125230_j86045374808683_1_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The source-node index of every edge (row 0 of the edge list), a negative one counted from the end, as a column. -/
def srcIdx (ei : (⟨S2x800000, .i32⟩ : BufTy).Contents (Elt F)) : (⟨S800000x1, .i32⟩ : BufTy).Contents (Elt F) :=
  broadcastInDim S800000x1 ![0] bcast_S800000_S800000x1_0
    (select (cmpi .slt (shapeCast _ (extractStridedSlice S1x800000 ![0, 0] ei slices_S2x800000_S1x800000_0_0) shapeCasts_S1x800000_S800000) (broadcastInDim S800000 ![] bcast_S_S800000 (constantI S_ 32 0#32)))
      (addi (shapeCast _ (extractStridedSlice S1x800000 ![0, 0] ei slices_S2x800000_S1x800000_0_0) shapeCasts_S1x800000_S800000) (broadcastInDim S800000 ![] bcast_S_S800000 (constantI S_ 32 50000#32)))
      (shapeCast _ (extractStridedSlice S1x800000 ![0, 0] ei slices_S2x800000_S1x800000_0_0) shapeCasts_S1x800000_S800000))

/-- The gathered rows: for every edge its source node's row of `x`. -/
def gathered (x : (⟨S50000x64, .f32⟩ : BufTy).Contents (Elt F)) (ei : (⟨S2x800000, .i32⟩ : BufTy).Contents (Elt F)) :
    (⟨S800000x64, .f32⟩ : BufTy).Contents (Elt F) :=
  Host.gather gather_S50000x64_S800000x1_S800000x64_1_0_n_n_0_1_164 x (srcIdx ei)

/-- The destination-node index of every edge (row 1 of the edge list). -/
def dstIdx (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The messages averaged per destination node: their scatter-sum divided by the in-degree, at least one. -/
def averaged (dst : (⟨S800000, .i32⟩ : BufTy).Contents (Elt F)) (msg : (⟨S800000x64, .f32⟩ : BufTy).Contents (Elt F)) :
    (⟨S50000x64, .f32⟩ : BufTy).Contents (Elt F) :=
  Host.divf
    (Host.scatterAdd scatter_S50000x64_S800000x1_S800000x64_1_0_0_1 (broadcastInDim S50000x64 ![] bcast_S_S50000x64 (constant S_ .f32 0x00000000#32))
      (broadcastInDim S800000x1 ![0] bcast_S800000_S800000x1_0 dst) msg)
    (broadcastInDim S50000x64 ![0, 1] bcast_S50000x1_S50000x64_0_1 (broadcastInDim S50000x1 ![0] bcast_S50000_S50000x1_0
      (maximumf (Host.scatterAdd scatter_S50000_S800000x1_S800000_n_0_0_1 (broadcastInDim S50000 ![] bcast_S_S50000 (constant S_ .f32 0x00000000#32))
          (broadcastInDim S800000x1 ![0] bcast_S800000_S800000x1_0 dst) (broadcastInDim S800000 ![] bcast_S_S800000 (constant S_ .f32 0x3F800000#32)))
        (broadcastInDim S50000 ![] bcast_S_S50000 (constant S_ .f32 0x3F800000#32)))))

variable (m : (ℓ : Loc nD τ sig) → Buf (Elt F) ℓ) (ρ : Dev nD → PrngReg)

/-! ## Region 0's input arrays, as the first stretch of host operations leaves them -/

theorem V1_v10 (c : Dev nD) : V1 m ρ c main_v10 = gathered (m ((c.tc : Thread nD τ).loc main_arg0)) (m ((c.tc : Thread nD τ).loc main_arg1)) := by
  show StableHlo.after hostOps0 (W0 m ρ c) (Proc.devRef .tc main_v10) = _
  after_results
  rfl

theorem V1_v11 (c : Dev nD) : V1 m ρ c main_v11 = transpose S64x64 [1, 0] (m ((c.tc : Thread nD τ).loc main_arg2)) transposes_S64x64_S64x64_1_0 := by
  show StableHlo.after hostOps0 (W0 m ρ c) (Proc.devRef .tc main_v11) = _
  after_results

theorem V1_v12 (c : Dev nD) : V1 m ρ c main_v12 = transpose S64x64 [1, 0] (m ((c.tc : Thread nD τ).loc main_arg3)) transposes_S64x64_S64x64_1_0 := by
  show StableHlo.after hostOps0 (W0 m ρ c) (Proc.devRef .tc main_v12) = _
  after_results

/-- The destination indices, computed before region 0 and read after it. -/
theorem W1_v3 (c : Dev nD) : W1 m ρ c (Proc.devRef .tc main_v3) = dstIdx (m ((c.tc : Thread nD τ).loc main_arg1)) := by
  show StableHlo.after hostOps0 (W0 m ρ c) (Proc.devRef .tc main_v3) = _
  after_results
  rfl

/-- Every argument of @main is as launched when region 0 is entered: no host operation writes one. -/
theorem W1_arg0 (c : Dev nD) : W1 m ρ c (Proc.devRef .tc main_arg0) = (m ((c.tc : Thread nD τ).loc main_arg0)) := by
  show StableHlo.after hostOps0 (W0 m ρ c) (Proc.devRef .tc main_arg0) = _
  after_results
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results
theorem W1_arg5 (c : Dev nD) : W1 m ρ c (Proc.devRef .tc main_arg5) = (m ((c.tc : Thread nD τ).loc main_arg5)) := by
  show StableHlo.after hostOps0 (W0 m ρ c) (Proc.devRef .tc main_arg5) = _
  after_results
theorem W1_arg6 (c : Dev nD) : W1 m ρ c (Proc.devRef .tc main_arg6) = (m ((c.tc : Thread nD τ).loc main_arg6)) := by
  show StableHlo.after hostOps0 (W0 m ρ c) (Proc.devRef .tc main_arg6) = _
  after_results
theorem W1_arg7 (c : Dev nD) : W1 m ρ c (Proc.devRef .tc main_arg7) = (m ((c.tc : Thread nD τ).loc main_arg7)) := by
  show StableHlo.after hostOps0 (W0 m ρ c) (Proc.devRef .tc main_arg7) = _
  after_results
theorem W1_arg8 (c : Dev nD) : W1 m ρ c (Proc.devRef .tc main_arg8) = (m ((c.tc : Thread nD τ).loc main_arg8)) := by
  show StableHlo.after hostOps0 (W0 m ρ c) (Proc.devRef .tc main_arg8) = _
  after_results
theorem W1_arg9 (c : Dev nD) : W1 m ρ c (Proc.devRef .tc main_arg9) = (m ((c.tc : Thread nD τ).loc main_arg9)) := by
  show StableHlo.after hostOps0 (W0 m ρ c) (Proc.devRef .tc main_arg9) = _
  after_results
theorem W1_arg10 (c : Dev nD) : W1 m ρ c (Proc.devRef .tc main_arg10) = (m ((c.tc : Thread nD τ).loc main_arg10)) := by
  show StableHlo.after hostOps0 (W0 m ρ c) (Proc.devRef .tc main_arg10) = _
  after_results

/-! ## Region 1's input arrays, as the second stretch leaves them: the node features as launched, the averaged messages of
    what region 0 wrote, the parameter rows reshaped, the weights transposed -/

theorem V3_arg0 (c : Dev nD) : V3 m ρ c main_arg0 = (m ((c.tc : Thread nD τ).loc main_arg0)) := by
  show StableHlo.after hostOps1 (W2 m ρ c) (Proc.devRef .tc main_arg0) = _
  after_results
  rw [W2_of_ne m ρ c main_arg0 (by decide), W1_arg0]

/-- The averaged messages: the scatter-mean, over the launched destination indices, of the array region 0 left. -/
theorem V3_v25 (c : Dev nD) :
    V3 m ρ c main_v25 = averaged (dstIdx (m ((c.tc : Thread nD τ).loc main_arg1))) ((dat0 (V1 m ρ) c).arrAt 3 cfg0.N) := by
  have h : V3 m ρ c main_v25 = averaged (W2 m ρ c (Proc.devRef .tc main_v3)) (W2 m ρ c (Proc.devRef .tc main_v13)) := by
    show StableHlo.after hostOps1 (W2 m ρ c) (Proc.devRef .tc main_v25) = _
    after_results
    rfl
  rw [h, W2_of_ne m ρ c main_v3 (by decide), W1_v3]
  exact congrArg (averaged (dstIdx (m ((c.tc : Thread nD τ).loc main_arg1)))) (W2_arr m ρ c 3)

theorem V3_v26 (c : Dev nD) : V3 m ρ c main_v26 = shapeCast S1x64 (m ((c.tc : Thread nD τ).loc main_arg4)) shapeCasts_S64_S1x64 := by
  show StableHlo.after hostOps1 (W2 m ρ c) (Proc.devRef .tc main_v26) = _
  after_results
  rw [W2_of_ne m ρ c main_arg4 (by decide), W1_arg4]
  rfl
theorem V3_v27 (c : Dev nD) : V3 m ρ c main_v27 = shapeCast S1x64 (m ((c.tc : Thread nD τ).loc main_arg5)) shapeCasts_S64_S1x64 := by
  show StableHlo.after hostOps1 (W2 m ρ c) (Proc.devRef .tc main_v27) = _
  after_results
  rw [W2_of_ne m ρ c main_arg5 (by decide), W1_arg5]
  rfl
theorem V3_v28 (c : Dev nD) : V3 m ρ c main_v28 = shapeCast S1x64 (m ((c.tc : Thread nD τ).loc main_arg6)) shapeCasts_S64_S1x64 := by
  show StableHlo.after hostOps1 (W2 m ρ c) (Proc.devRef .tc main_v28) = _
  after_results
  rw [W2_of_ne m ρ c main_arg6 (by decide), W1_arg6]
  rfl
theorem V3_v29 (c : Dev nD) : V3 m ρ c main_v29 = shapeCast S1x64 (m ((c.tc : Thread nD τ).loc main_arg7)) shapeCasts_S64_S1x64 := by
  show StableHlo.after hostOps1 (W2 m ρ c) (Proc.devRef .tc main_v29) = _
  after_results
  rw [W2_of_ne m ρ c main_arg7 (by decide), W1_arg7]
  rfl
theorem V3_v30 (c : Dev nD) : V3 m ρ c main_v30 = shapeCast S1x64 (m ((c.tc : Thread nD τ).loc main_arg8)) shapeCasts_S64_S1x64 := by
  show StableHlo.after hostOps1 (W2 m ρ c) (Proc.devRef .tc main_v30) = _
  after_results
  rw [W2_of_ne m ρ c main_arg8 (by decide), W1_arg8]
  rfl

theorem V3_v31 (c : Dev nD) : V3 m ρ c main_v31 = transpose S128x64 [1, 0] (m ((c.tc : Thread nD τ).loc main_arg9)) transposes_S64x128_S128x64_1_0 := by
  show StableHlo.after hostOps1 (W2 m ρ c) (Proc.devRef .tc main_v31) = _
  after_results
  rw [W2_of_ne m ρ c main_arg9 (by decide), W1_arg9]

theorem V3_v32 (c : Dev nD) : V3 m ρ c main_v32 = transpose S64x64 [1, 0] (m ((c.tc : Thread nD τ).loc main_arg10)) transposes_S64x64_S64x64_1_0 := by
  show StableHlo.after hostOps1 (W2 m ρ c) (Proc.devRef .tc main_v32) = _
  after_results
  rw [W2_of_ne m ρ c main_arg10 (by decide), W1_arg10]

end Cert.KernelIdeal.Host
end
-- ==== Proof.Spec.lean ====
/-
  The mathematics both programs compute, row by row, on the extended reals.

  A graph layer over 50000 nodes with 64 features and 800000 edges. For each edge the source node's row is gathered and sent
  through a two-layer perceptron without biases, `relu (a · B) · C`; the messages are averaged per destination node (a
  scatter-add divided by the in-degree, at least one); the average is layer-normalised; the node's own row is pushed away
  from it, `x + (x - ln₁) * w`, and layer-normalised again; the two normalised rows, side by side (128 features), go through a
  second two-layer perceptron. Every step but the gather and the scatter acts on ONE row at a time, which is why a program
  that walks the rows block by block and one that takes the whole arrays at once compute the same arrays.

  Stated here, with no program in sight: the row functions (`mlpRow`, `lnRow`, `fxRow`, `catRow`, `nodeRow`) and the two
  whole-array functions built from them (`G0`: the messages from the gathered rows; `G1`: the result from the node rows and the
  averaged messages). A sum over a row is a `Finset` sum over its 64 (or 128) coordinates, so no order of summation is left in them.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, by its two extents. -/
abbrev Arr (a b : Nat) := (⟨2, ![a, b]⟩ : Shape).Idx → EReal

/-- Row `r` of a rank-2 array. -/
def row {R C : Nat} (X : Arr R C) (r : Fin R) : Fin C → EReal := fun k => X (ix2 r k)

/-- The float word of `64.0`, the length of a row, as the layer norm divides by it. -/
def c64 : EReal := Ideal.ofBits .f32 0x42800000#32

/-- The float word nearest `1e-5`, the layer norm's epsilon (the same word in both programs, so its value is never needed). -/
def eps : EReal := Ideal.ofBits .f32 0x3727C5AC#32

/-- A two-layer perceptron without biases on one row: `relu (a · B) · C` at column `j`. -/
def mlpRow {K1 K2 N : Nat} (a : Fin K1 → EReal) (B : Arr K1 K2) (C : Arr K2 N) (j : Fin N) : EReal :=
  ∑ k2 : Fin K2, max (∑ k1 : Fin K1, a k1 * B (ix2 k1 k2)) 0 * C (ix2 k2 j)

/-- The mean of a row of 64. -/
def mean64 (v : Fin 64 → EReal) : EReal := Ideal.div (∑ k : Fin 64, v k) c64

/-- Layer normalisation of a row of 64 with the biased variance: `(v - mean) * rsqrt (var + eps) * g + b` at column `j`. -/
def lnRow (v g b : Fin 64 → EReal) (j : Fin 64) : EReal :=
  (v j - mean64 v) * Ideal.rsqrt (Ideal.div (∑ k : Fin 64, (v k - mean64 v) * (v k - mean64 v)) c64 + eps) * g j + b j

/-- The node's own row pushed away from the normalised average, then normalised: `ln₂ (x + (x - ln₁ a) * w)`. -/
def fxRow (x a g1 b1 w g2 b2 : Fin 64 → EReal) : Fin 64 → EReal :=
  lnRow (fun k => x k + (x k - lnRow a g1 b1 k) * w k) g2 b2

/-- Two rows of 64 side by side. -/
def catRow (u v : Fin 64 → EReal) (k : Fin 128) : EReal :=
  if h : k.val < 64 then u ⟨k.val, h⟩ else v ⟨k.val - 64, by have := k.isLt; omega⟩

/-- One node's result row: the second perceptron on `[fx | ln₁ a]`. -/
def nodeRow (x a g1 b1 w g2 b2 : Fin 64 → EReal) (A : Arr 128 64) (B : Arr 64 64) (j : Fin 64) : EReal :=
  mlpRow (catRow (fxRow x a g1 b1 w g2 b2) (lnRow a g1 b1)) A B j

/-- THE MESSAGES: every gathered row through the first perceptron. -/
def G0 (M : Arr 800000 64) (A B : Arr 64 64) : Arr 800000 64 :=
  fun i => mlpRow (row M (i 0)) A B (i 1)

/-- THE RESULT: every node's row `x` and averaged message `agg` through the normalisations and the second perceptron. The five
    parameter rows come as `1 × 64` arrays (a reshape on one side, a broadcast on the other: the same row). -/
def G1 (X AGG : Arr 50000 64) (g1 b1 w g2 b2 : Arr 1 64) (A : Arr 128 64) (B : Arr 64 64) : Arr 50000 64 :=
  fun i => nodeRow (row X (i 0)) (row AGG (i 0)) (row g1 0) (row b1 0) (row w 0) (row g2 0) (row b2 0) A B (i 1)

end Cert.Spec

end
-- ==== Proof.Reg0Value.lean ====
/-
  The first stage of the graph layer, read as mathematics: every gathered row goes through a two-layer perceptron
  without biases, `relu (a · B) · C`.

  The program walks the 800000 gathered rows in 100 blocks of 8000 rows and keeps both 64 × 64 weight matrices whole at
  every step. Two things are shown. First, what one step computes at row `p` and column `q` of its block is the
  perceptron of row `p` of that block: a block product accumulated from zero is, entry by entry, the sum over the 64
  inner coordinates of the products; the change of float format is the identity on the extended reals; and the maximum
  with the zero word is the maximum with `0`. Second, row `p` of block `t` is row `8000 · t + p` of the whole array, the
  weights are the same at every step, and every row lies in exactly the block numbered by its quotient by 8000; so the
  array the 100 steps leave behind is the perceptron applied to every row of the array they started from.
-/
import proofs.«125230_j86045374808683_1_alg».proof.Proof.Gen.KernelIdeal.Frame
import proofs.«125230_j86045374808683_1_alg».proof.Proof.Spec
import Idealize.ShloMosaic.Lib.Pipeline.Value
import Idealize.ShloMosaic.Lib.ValueIdx
import Idealize.ShloMosaic.PureOps.Ideal.Laws

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block through the perceptron, entry by entry -/

/-- In the block product `[8000, 64] · [64, 64]`, the left factor of a term is read in the row of the output entry ... -/
theorem lhs_dot_S8000x64_S64x64_S8000x64_1_0_0_1_n_n_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- ... and in the column given by the summation coordinate. -/
theorem lhs_dot_S8000x64_S64x64_S8000x64_1_0_0_1_n_n_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right factor is read in the row given by the summation coordinate ... -/
theorem rhs_dot_S8000x64_S64x64_S8000x64_1_0_0_1_n_n_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- ... and in the column of the output entry. -/
theorem rhs_dot_S8000x64_S64x64_S8000x64_1_0_0_1_n_n_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block product accumulated from zero, at row `p` and column `q`: `∑ k, a[p, k] * b[k, q]` over the 64 inner
    coordinates (the one-axis summation index is its single coordinate, and the zero accumulator adds nothing). -/
theorem blockProduct_apply (a : FVec Ideal S8000x64 .bf16) (b : FVec Ideal S64x64 .bf16) (p : Fin 8000) (q : Fin 64) :
    matmul dot_S8000x64_S64x64_S8000x64_1_0_0_1_n_n none a b (constant (F := Ideal) S8000x64 .f32 0x00000000#32) (ix2 p q)
      = ∑ k : Fin 64, a (ix2 p k) * b (ix2 k q) := by
  show FloatOps.matmul dot_S8000x64_S64x64_S8000x64_1_0_0_1_n_n none a b (constant (F := Ideal) S8000x64 .f32 0x00000000#32) (ix2 p q) = _
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_dot_S8000x64_S64x64_S8000x64_1_0_0_1_n_n_0 _ _
    | ⟨1, _⟩ => exact (lhs_dot_S8000x64_S64x64_S8000x64_1_0_0_1_n_n_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_dot_S8000x64_S64x64_S8000x64_1_0_0_1_n_n_0 _ _).trans hk
    | ⟨1, _⟩ => exact rhs_dot_S8000x64_S64x64_S8000x64_1_0_0_1_n_n_1 _ _)
  rw [el, er]

/-- WHAT ONE STEP STORES, at row `p` and column `q` of its block: the perceptron `relu (a · B) · C` of row `p` of the block
    of gathered rows `x0`, with `B = x1` and `C = x2`. The outer product is a sum over the hidden coordinate; under it the
    inner product is a sum again, the format changes are the identity, and the maximum is taken against the zero word,
    which is `0`. -/
theorem pay0_apply (x0 : Vec Ideal S8000x64 .f32) (x1 x2 : Vec Ideal S64x64 .f32) (p : Fin 8000) (q : Fin 64) :
    k0_pay1 (F := Ideal) x0 x1 x2 (ix2 p q) = Cert.Spec.mlpRow (Cert.Spec.row x0 p) x1 x2 q := by
  unfold k0_pay1
  simp only [shapeCast_self]
  rw [blockProduct_apply]
  unfold Cert.Spec.mlpRow Cert.Spec.row
  refine Finset.sum_congr rfl fun k _ => ?_
  rw [truncf_apply, truncf_apply, maximumf_apply, broadcast_apply, blockProduct_apply]
  show max _ (Ideal.ofBits .f32 0x00000000#32) * _ = _
  rw [Ideal.ofBits_zero_f32]
  rfl

/-! ## From the 100 blocks to the whole array of messages -/

section Blocks

-- the contents of every array when the 100 steps begin
variable (V : (c : Dev nD) → (b : Ref sig .tc) → Buf (Elt Ideal) ((c : Thread nD τ).loc b))

/-- The origin of a rank-2 block, spelt as a constant function. -/
theorem origin_eq : (![0, 0] : Fin 2 → Nat) = fun _ => 0 := funext fun a => by fin_cases a <;> rfl

/-- WHERE EACH STEP READS AND WRITES, checked at all 100 steps: step `t` takes block `(t, 0)` of the gathered rows, block
    `(0, 0)` (the whole) of either weight matrix, and writes block `(t, 0)` of the messages. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of step `t`'s block of gathered rows is row `r = 8000 · t + p` of the array: along each axis a block's entry
    sits at (block index) × (block extent) + (its coordinate inside the block). -/
theorem gatheredRows_apply (c : Dev nD) (t : Fin cfg0.N) (p : Fin 8000) (k : Fin 64) (r : Fin 800000) (hr : r.val = t.val * 8000 + p.val) :
    iblk0 (F := Ideal) V c 0 t (ix2 p k) = V c main_v10 (ix2 r k) := by
  show V c main_v10 (((cfg0.win 0).blk t).view.emb (ix2 p k)) = V c main_v10 (ix2 r k)
  refine congrArg _ ?_
  obtain ⟨e0, e1, -⟩ := block_indices t
  funext a; apply Fin.ext
  match a with
  | ⟨0, _⟩ => show win0_0.index t (0 : Fin 2) * 8000 + 1 * p.val = r.val; omega
  | ⟨1, _⟩ => show win0_0.index t (1 : Fin 2) * 64 + 1 * k.val = k.val; omega

/-- The first weight matrix is read whole at every step. -/
theorem firstWeights_apply (c : Dev nD) (t : Fin cfg0.N) (k1 k2 : Fin 64) :
    iblk0 (F := Ideal) V c 1 t (ix2 k1 k2) = V c main_v11 (ix2 k1 k2) := by
  show V c main_v11 (((cfg0.win 1).blk t).view.emb (ix2 k1 k2)) = V c main_v11 (ix2 k1 k2)
  refine congrArg _ ?_
  obtain ⟨-, -, e2, e3, -⟩ := block_indices t
  funext a; apply Fin.ext
  match a with
  | ⟨0, _⟩ => show win0_1.index t (0 : Fin 2) * 64 + 1 * k1.val = k1.val; omega
  | ⟨1, _⟩ => show win0_1.index t (1 : Fin 2) * 64 + 1 * k2.val = k2.val; omega

/-- So is the second. -/
theorem secondWeights_apply (c : Dev nD) (t : Fin cfg0.N) (k1 k2 : Fin 64) :
    iblk0 (F := Ideal) V c 2 t (ix2 k1 k2) = V c main_v12 (ix2 k1 k2) := by
  show V c main_v12 (((cfg0.win 2).blk t).view.emb (ix2 k1 k2)) = V c main_v12 (ix2 k1 k2)
  refine congrArg _ ?_
  obtain ⟨-, -, -, -, e4, e5, -⟩ := block_indices t
  funext a; apply Fin.ext
  match a with
  | ⟨0, _⟩ => show win0_2.index t (0 : Fin 2) * 64 + 1 * k1.val = k1.val; omega
  | ⟨1, _⟩ => show win0_2.index t (1 : Fin 2) * 64 + 1 * k2.val = k2.val; omega

/-- WHAT STEP `t` WRITES BACK is block `t` of the array of messages `G0`: at row `p`, column `q` of the block both sides are
    the perceptron of row `8000 · t + p` of the gathered rows, at column `q`. -/
theorem messagesBlock_eq (c : Dev nD) (t : Fin cfg0.N) :
    (dat0 (F := Ideal) V c).flushed 3 t = ((cfg0.win 3).blk t).view.read (Elt Ideal) (Cert.Spec.G0 (V c main_v10) (V c main_v11) (V c main_v12)) := by
  show (cfg0.win 3).cut (grid0.coords t) ((dat0 V c).after 3 t) = _
  rw [after0_3]
  unfold out0_3
  rw [View.canon_unit_zero origin_eq]
  simp only [View.ld_unit_zero (S := S8000x64) origin_eq, View.ld_unit_zero (S := S64x64) origin_eq]
  funext j
  obtain ⟨p, q, rfl⟩ : ∃ (p : Fin 8000) (q : Fin 64), j = ix2 p q := ⟨j 0, j 1, eq_ix2 j⟩
  show k0_pay1 (F := Ideal) (iblk0 V c 0 t) (iblk0 V c 1 t) (iblk0 V c 2 t) (ix2 p q)
      = Cert.Spec.G0 (V c main_v10) (V c main_v11) (V c main_v12) (((cfg0.win 3).blk t).view.emb (ix2 p q))
  refine (pay0_apply (iblk0 V c 0 t) (iblk0 V c 1 t) (iblk0 V c 2 t) p q).trans ?_
  have ht : t.val < 100 := lt_of_lt_of_eq t.isLt N_0
  obtain ⟨-, -, -, -, -, -, e6, e7⟩ := block_indices t
  have hemb : ((cfg0.win 3).blk t).view.emb (ix2 p q) = ix2 (⟨t.val * 8000 + p.val, by omega⟩ : Fin 800000) q := by
    funext a; apply Fin.ext
    match a with
    | ⟨0, _⟩ => show win0_3.index t (0 : Fin 2) * 8000 + 1 * p.val = t.val * 8000 + p.val; omega
    | ⟨1, _⟩ => show win0_3.index t (1 : Fin 2) * 64 + 1 * q.val = q.val; omega
  rw [hemb]
  have h0 : Cert.Spec.row (iblk0 (F := Ideal) V c 0 t) p = Cert.Spec.row (V c main_v10) (⟨t.val * 8000 + p.val, by omega⟩ : Fin 800000) :=
    funext fun k => gatheredRows_apply V c t p k _ rfl
  have h1 : (iblk0 (F := Ideal) V c 1 t : S64x64.Idx → EReal) = V c main_v11 := funext fun j => by
    obtain ⟨a, b, rfl⟩ : ∃ (a b : Fin 64), j = ix2 a b := ⟨j 0, j 1, eq_ix2 j⟩
    exact firstWeights_apply V c t a b
  have h2 : (iblk0 (F := Ideal) V c 2 t : S64x64.Idx → EReal) = V c main_v12 := funext fun j => by
    obtain ⟨a, b, rfl⟩ : ∃ (a b : Fin 64), j = ix2 a b := ⟨j 0, j 1, eq_ix2 j⟩
    exact secondWeights_apply V c t a b
  show Cert.Spec.mlpRow (Cert.Spec.row (iblk0 (F := Ideal) V c 0 t) p) (iblk0 (F := Ideal) V c 1 t) (iblk0 (F := Ideal) V c 2 t) q
      = Cert.Spec.mlpRow (Cert.Spec.row (V c main_v10) (⟨t.val * 8000 + p.val, by omega⟩ : Fin 800000)) (V c main_v11) (V c main_v12) q
  rw [h0, h1, h2]

/-- An entry of the messages lies in step `t`'s block iff each of its coordinates lies in the block's range on that axis. -/
theorem mem_messagesBlock (t : Fin cfg0.N) (i : S800000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v13).slice (win0_3.rect t)).set ↔ _
  rw [View.set_slice_whole, Rect.mem_set_unit]
  exact Iff.rfl

/-- EVERY ENTRY IS WRITTEN: row `r` lies in the block of step `r / 8000` (800000 = 100 · 8000), all 64 columns with it. -/
theorem messages_covered (i : S800000x64.Idx) : ∃ t : Fin cfg0.N, (cfg0.win 3).flush t = true ∧ i ∈ ((cfg0.win 3).blk t).view.set := by
  have hi0 : (i 0).val < 800000 := (i 0).isLt
  have hi1 : (i 1).val < 64 := (i 1).isLt
  have hN : (i 0).val / 8000 < cfg0.N := by rw [show cfg0.N = 100 from N_0]; omega
  refine ⟨⟨(i 0).val / 8000, hN⟩, flush0_3 _, ?_⟩
  rw [mem_messagesBlock]
  obtain ⟨-, -, -, -, -, -, e6, e7⟩ := block_indices ⟨(i 0).val / 8000, hN⟩
  intro a
  match a with
  | ⟨0, _⟩ =>
    show win0_3.index ⟨(i 0).val / 8000, hN⟩ (0 : Fin 2) * 8000 ≤ (i 0).val ∧ (i 0).val < win0_3.index ⟨(i 0).val / 8000, hN⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, hN⟩ (1 : Fin 2) * 64 ≤ (i 1).val ∧ (i 1).val < win0_3.index ⟨(i 0).val / 8000, hN⟩ (1 : Fin 2) * 64 + 64
    rw [e7]; omega

/-- THE MESSAGES after the 100 steps: the perceptron of every gathered row, `G0` of the three arrays the steps started
    from — each step writes its block of `G0`, and the blocks cover the array. -/
theorem final0 (c : Dev nD) :
    (dat0 (F := Ideal) V c).arrAt 3 cfg0.N = Cert.Spec.G0 (V c main_v10) (V c main_v11) (V c main_v12) :=
  (dat0 (F := Ideal) V c).arrAt_eq_of_cover 3 (Cert.Spec.G0 (V c main_v10) (V c main_v11) (V c main_v12))
    (fun t _ => messagesBlock_eq V c t) messages_covered

end Blocks

end Cert.KernelIdeal.Reg0

end
-- ==== Proof.Reg1Payload.lean ====
/-
  One element of what the node kernel's body stores, as the row function of the specification.

  The body reads a block of 5000 node rows `x`, the matching block of averaged messages `agg`, five parameter rows and the two
  (transposed) weight matrices, and stores `relu ([fx | ln₁] · A) · B`, where `ln₁` is the layer norm of `agg`'s row and `fx` the
  layer norm of `x + (x - ln₁) * w`. Every operation of it acts inside ONE row of the block, so the stored element at row
  `p`, column `q` is `Spec.nodeRow` of row `p` of `x` and of `agg`: the lane sums are the row's `Finset` sums, a change of float
  format is the identity, the matrix products into a zero accumulator are the plain contractions, and the concatenation
  puts `fx`'s 64 columns before `ln₁`'s.
-/
import proofs.«125230_j86045374808683_1_alg».proof.Proof.Gen.KernelIdeal.Skeleton
import proofs.«125230_j86045374808683_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg1

open Cert.KernelIdeal Cert.KernelIdeal.Gen Idealize.ShloMosaic Idealize.ShloMosaic.ValueIdx

/-! ## Layout operations the layer norm meets, read at an index -/
section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the 64 lanes of a `[5000, 64]` block, at row `p`, is the sum of that row's entries. -/
theorem laneSum_apply (v : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-! ## The layer norm of a block, row by row -/

/-- The column of row means of a `[5000, 64]` block: each row's lane sum divided by the float word of `64`. -/
def meanCol (v : FVec Ideal S5000x64 .f32) : FVec Ideal S5000x1 .f32 :=
  divf (shapeCast S5000x1 (multiReduction (F := Ideal) .add [1] S5000 v 0x00000000#32 reduces_S5000x64_S5000 (.inl rfl) rfl)
    shapeCasts_S5000_S5000x1) (broadcast S5000x1 (Scalar.ofBits .f32 0x42800000#32))

/-- A block with each row's mean taken off every entry of that row. -/
def centered (v : FVec Ideal S5000x64 .f32) : FVec Ideal S5000x64 .f32 :=
  subf v (broadcastTo S5000x64 (meanCol v) broadcasts_S5000x1_S5000x64)

/-- Layer normalisation of every row of a block, with one row of gains and one of offsets shared by all rows:
    the centred row times the reciprocal square root of (its mean square plus epsilon), times the gain, plus the offset. -/
def lnBlock (v : FVec Ideal S5000x64 .f32) (g b : FVec Ideal S1x64 .f32) : FVec Ideal S5000x64 .f32 :=
  addf (mulf (mulf (centered v)
      (broadcastTo S5000x64 (rsqrt (addf (meanCol (mulf (centered v) (centered v)))
        (broadcast S5000x1 (Scalar.ofBits .f32 0x3727C5AC#32)))) broadcasts_S5000x1_S5000x64))
      (broadcastTo S5000x64 g broadcasts_S1x64_S5000x64))
    (broadcastTo S5000x64 b broadcasts_S1x64_S5000x64)

/-- The mean column at row `p` is the specification's mean of that row. -/
theorem meanCol_apply (v : FVec Ideal S5000x64 .f32) (p : Fin 5000) (u : Fin 1) :
    meanCol v (ix2 p u) = Cert.Spec.mean64 (Cert.Spec.row v p) := by
  unfold meanCol Cert.Spec.mean64 Cert.Spec.c64
  rw [divf_apply, broadcast_apply, shapeCast_a_a1_apply]
  exact congrArg (fun s => Ideal.div s (Ideal.ofBits .f32 0x42800000#32)) (laneSum_apply v _ _ _ p)

/-- A centred block at `(p, k)`: the entry less its row's mean. -/
theorem centered_apply (v : FVec Ideal S5000x64 .f32) (p : Fin 5000) (k : Fin 64) :
    centered v (ix2 p k) = Cert.Spec.row v p k - Cert.Spec.mean64 (Cert.Spec.row v p) := by
  unfold centered
  rw [subf_apply, broadcastTo_a1_ab_apply, meanCol_apply]
  rfl

/-- The normalised block at `(p, k)` is the specification's layer norm of row `p` at column `k`. -/
theorem lnBlock_apply (v : FVec Ideal S5000x64 .f32) (g b : FVec Ideal S1x64 .f32) (p : Fin 5000) (k : Fin 64) :
    lnBlock v g b (ix2 p k) = Cert.Spec.lnRow (Cert.Spec.row v p) (Cert.Spec.row g 0) (Cert.Spec.row b 0) k := by
  have hsq : Cert.Spec.row (mulf (centered v) (centered v)) p
      = fun j => (Cert.Spec.row v p j - Cert.Spec.mean64 (Cert.Spec.row v p)) * (Cert.Spec.row v p j - Cert.Spec.mean64 (Cert.Spec.row v p)) := by
    funext j
    show mulf (centered v) (centered v) (ix2 p j) = _
    rw [mulf_apply, centered_apply]
  unfold lnBlock Cert.Spec.lnRow
  rw [addf_apply, mulf_apply, mulf_apply, centered_apply, broadcastTo_a1_ab_apply, broadcastTo_1b_ab_apply, broadcastTo_1b_ab_apply]
  show _ * Ideal.rsqrt (meanCol (mulf (centered v) (centered v)) (ix2 p 0) + Ideal.ofBits .f32 0x3727C5AC#32) * _ + _ = _
  rw [meanCol_apply, hsq]
  rfl

/-! ## The two matrix products into a zero accumulator

Each product contracts the left operand's columns with the right operand's rows; the coordinates of the two operand
indices, one lemma per axis, then the product at `(p, q)` as the sum over the contracted coordinate. -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A `[5000, 128]` block times a `[128, 64]` matrix, accumulated from zero, at `(p, q)`: `∑ k, L (p, k) * R (k, q)`. -/
theorem matmulA_apply (L : FVec Ideal S5000x128 .bf16) (R : FVec Ideal S128x64 .bf16) (p : Fin 5000) (q : Fin 64) :
    matmul dot_S5000x128_S128x64_S5000x64_1_0_0_1_n_n none L R (constant (F := Ideal) S5000x64 .f32 0x00000000#32) (ix2 p q)
      = ∑ k : Fin 128, L (ix2 p k) * R (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- A `[5000, 64]` block times a `[64, 64]` matrix, accumulated from zero, at `(p, q)`: `∑ k, L (p, k) * R (k, q)`. -/
theorem matmulB_apply (L : FVec Ideal S5000x64 .bf16) (R : FVec Ideal S64x64 .bf16) (p : Fin 5000) (q : Fin 64) :
    matmul dot_S5000x64_S64x64_S5000x64_1_0_0_1_n_n none L R (constant (F := Ideal) S5000x64 .f32 0x00000000#32) (ix2 p q)
      = ∑ k : Fin 64, L (ix2 p k) * R (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The block's two perceptron layers, the concatenation, and the stored value -/

/-- Two `[5000, 64]` blocks side by side along the columns. -/
def catBlock (u v : FVec Ideal S5000x64 .f32) : FVec Ideal S5000x128 .f32 :=
  concatenate S5000x128 1 [⟨S5000x64, u⟩, ⟨S5000x64, v⟩] concatenates_S5000x64_S5000x64_S5000x128_d1

/-- Row `p` of the side-by-side block is row `p` of the first followed by row `p` of the second. -/
theorem catBlock_apply (u v : FVec Ideal S5000x64 .f32) (p : Fin 5000) (k : Fin 128) :
    catBlock u v (ix2 p k) = Cert.Spec.catRow (Cert.Spec.row u p) (Cert.Spec.row v p) k := by
  unfold catBlock Cert.Spec.catRow
  by_cases h : k.val < 64
  · rw [dif_pos h]
    exact concatenate_pair_apply_left (1 : Fin S5000x128.rank) u v _ (ix2 p k) rfl (ix2 p ⟨k.val, h⟩) (fun b => by
      match b with
      | ⟨0, _⟩ => rfl
      | ⟨1, _⟩ => rfl)
  · rw [dif_neg h]
    exact concatenate_pair_apply_right (1 : Fin S5000x128.rank) u v _ (ix2 p k) rfl rfl
      (ix2 p ⟨k.val - 64, by have := k.isLt; omega⟩) (fun b hb => by
        match b with
        | ⟨0, _⟩ => rfl
        | ⟨1, _⟩ => exact absurd rfl hb) (by show k.val - 64 + 64 = k.val; omega)

/-- The second perceptron on a block: `relu (c · A) · B`, every change of float format being the identity. -/
def mlpBlock (c : FVec Ideal S5000x128 .f32) (A : FVec Ideal S128x64 .f32) (B : FVec Ideal S64x64 .f32) : FVec Ideal S5000x64 .f32 :=
  matmul dot_S5000x64_S64x64_S5000x64_1_0_0_1_n_n none
    (truncf .bf16 (maximumf (matmul dot_S5000x128_S128x64_S5000x64_1_0_0_1_n_n none (truncf .bf16 c bitsLt_bf16_f32) (truncf .bf16 A bitsLt_bf16_f32)
        (constant S5000x64 .f32 0x00000000#32)) (broadcast S5000x64 (Scalar.ofBits .f32 0x00000000#32))) bitsLt_bf16_f32)
    (truncf .bf16 B bitsLt_bf16_f32) (constant S5000x64 .f32 0x00000000#32)

/-- At `(p, q)` it is the specification's perceptron on row `p`. -/
theorem mlpBlock_apply (c : FVec Ideal S5000x128 .f32) (A : FVec Ideal S128x64 .f32) (B : FVec Ideal S64x64 .f32)
    (p : Fin 5000) (q : Fin 64) : mlpBlock c A B (ix2 p q) = Cert.Spec.mlpRow (Cert.Spec.row c p) A B q := by
  unfold mlpBlock Cert.Spec.mlpRow
  rw [matmulB_apply]
  refine Finset.sum_congr rfl fun k2 _ => ?_
  rw [truncf_apply, truncf_apply, maximumf_apply, matmulA_apply, broadcast_apply]
  show max _ (Ideal.ofBits .f32 0x00000000#32) * _ = _
  rw [Ideal.ofBits_zero_f32]
  rfl

/-- The first layer norm of the body (of the averaged messages) is `lnBlock` of the loaded blocks. -/
theorem pay4_eq (x1 : Vec Ideal S5000x64 .f32) (x2 x3 : Vec Ideal S1x64 .f32) :
    k1_pay4 (F := Ideal) x1 x2 x3 = lnBlock x1 x2 x3 := by
  have e : k1_pay4 (F := Ideal) x1 x2 x3 = lnBlock (shapeCast S5000x64 x1 shapeCasts_S5000x64_S5000x64)
      (shapeCast S1x64 x2 shapeCasts_S1x64_S1x64) (shapeCast S1x64 x3 shapeCasts_S1x64_S1x64) := rfl
  rw [e, shapeCast_self, shapeCast_self, shapeCast_self]

/-- The node's own row pushed away from the normalised average, at `(p, k)`: `x + (x - ln₁) * w`. -/
theorem pay5_apply (x0 x1 : Vec Ideal S5000x64 .f32) (x2 x3 x4 : Vec Ideal S1x64 .f32) (p : Fin 5000) (k : Fin 64) :
    k1_pay5 (F := Ideal) x0 x1 x2 x3 x4 (ix2 p k)
      = Cert.Spec.row x0 p k + (Cert.Spec.row x0 p k
          - Cert.Spec.lnRow (Cert.Spec.row x1 p) (Cert.Spec.row x2 0) (Cert.Spec.row x3 0) k) * Cert.Spec.row x4 0 k := by
  have e : k1_pay5 (F := Ideal) x0 x1 x2 x3 x4 = addf (x0 : FVec Ideal S5000x64 .f32) (mulf (subf (x0 : FVec Ideal S5000x64 .f32) (k1_pay4 x1 x2 x3))
      (broadcastTo S5000x64 (shapeCast S1x64 x4 shapeCasts_S1x64_S1x64) broadcasts_S1x64_S5000x64)) := rfl
  rw [e, shapeCast_self, pay4_eq, addf_apply, mulf_apply, subf_apply, lnBlock_apply, broadcastTo_1b_ab_apply]
  rfl

/-- The stored block is the second perceptron on `[ln₂ (…) | ln₁]`. -/
theorem pay1_eq (v10 v12 : FVec Ideal S1x64 .f32) (v34 v38 : FVec Ideal S5000x64 .f32) (v62 : Vec Ideal S128x64 .f32)
    (v65 : Vec Ideal S64x64 .f32) :
    k1_pay1 (F := Ideal) v10 v12 v34 v38 v62 v65 = mlpBlock (catBlock (lnBlock v38 v10 v12) v34) v62 v65 := by
  have e : k1_pay1 (F := Ideal) v10 v12 v34 v38 v62 v65 = mlpBlock (catBlock (lnBlock v38 v10 v12) v34)
      (shapeCast S128x64 v62 shapeCasts_S128x64_S128x64) (shapeCast S64x64 v65 shapeCasts_S64x64_S64x64) := rfl
  rw [e, shapeCast_self, shapeCast_self]

/-- The node kernel's stored block at row `p`, column `q`, from its loaded blocks. -/
theorem pay1_apply (x0 x1 : Vec Ideal S5000x64 .f32) (x2 x3 x4 x5 x6 : Vec Ideal S1x64 .f32)
    (x7 : Vec Ideal S128x64 .f32) (x8 : Vec Ideal S64x64 .f32) (p : Fin 5000) (q : Fin 64) :
    k1_pay1 (F := Ideal) (k1_pay2 x5) (k1_pay3 x6) (k1_pay4 x1 x2 x3) (k1_pay5 x0 x1 x2 x3 x4) x7 x8 (ix2 p q)
      = Cert.Spec.nodeRow (Cert.Spec.row x0 p) (Cert.Spec.row x1 p) (Cert.Spec.row x2 0) (Cert.Spec.row x3 0)
          (Cert.Spec.row x4 0) (Cert.Spec.row x5 0) (Cert.Spec.row x6 0) x7 x8 q := by
  have e2 : k1_pay2 (F := Ideal) x5 = x5 := shapeCast_self x5 _
  have e3 : k1_pay3 (F := Ideal) x6 = x6 := shapeCast_self x6 _
  -- row `p` of the pushed-away block
  have h5 : Cert.Spec.row (k1_pay5 (F := Ideal) x0 x1 x2 x3 x4) p = fun k => Cert.Spec.row x0 p k + (Cert.Spec.row x0 p k
      - Cert.Spec.lnRow (Cert.Spec.row x1 p) (Cert.Spec.row x2 0) (Cert.Spec.row x3 0) k) * Cert.Spec.row x4 0 k :=
    funext fun k => pay5_apply x0 x1 x2 x3 x4 p k
  -- row `p` of its layer norm, and of the first layer norm
  have hfx : Cert.Spec.row (lnBlock (k1_pay5 (F := Ideal) x0 x1 x2 x3 x4) x5 x6) p
      = Cert.Spec.fxRow (Cert.Spec.row x0 p) (Cert.Spec.row x1 p) (Cert.Spec.row x2 0) (Cert.Spec.row x3 0)
          (Cert.Spec.row x4 0) (Cert.Spec.row x5 0) (Cert.Spec.row x6 0) := by
    funext k
    show lnBlock (k1_pay5 (F := Ideal) x0 x1 x2 x3 x4) x5 x6 (ix2 p k) = _
    rw [lnBlock_apply, h5]
    rfl
  have hln : Cert.Spec.row (lnBlock x1 x2 x3) p
      = Cert.Spec.lnRow (Cert.Spec.row x1 p) (Cert.Spec.row x2 0) (Cert.Spec.row x3 0) :=
    funext fun k => lnBlock_apply x1 x2 x3 p k
  have hcat : Cert.Spec.row (catBlock (lnBlock (k1_pay5 (F := Ideal) x0 x1 x2 x3 x4) x5 x6) (lnBlock x1 x2 x3)) p
      = Cert.Spec.catRow (Cert.Spec.fxRow (Cert.Spec.row x0 p) (Cert.Spec.row x1 p) (Cert.Spec.row x2 0) (Cert.Spec.row x3 0)
          (Cert.Spec.row x4 0) (Cert.Spec.row x5 0) (Cert.Spec.row x6 0))
          (Cert.Spec.lnRow (Cert.Spec.row x1 p) (Cert.Spec.row x2 0) (Cert.Spec.row x3 0)) := by
    funext k
    show catBlock _ _ (ix2 p k) = _
    rw [catBlock_apply, hfx, hln]
  rw [e2, e3, pay4_eq, pay1_eq, mlpBlock_apply, hcat]
  rfl

end Cert.KernelIdeal.Reg1

end
-- ==== Proof.Reg1Value.lean ====
/-
  The node kernel's result array, as one function of the arrays the kernel finds.

  The kernel walks the 50000 node rows in ten blocks of 5000. At block t it reads rows 5000·t … 5000·t + 4999 of the
  node features and of the averaged messages, the five parameter rows and the two weight matrices whole, and writes
  back rows 5000·t … 5000·t + 4999 of the result. Every element it writes depends on ONE row of each blocked input, so
  the element at row 5000·t + p, column q is the specification's node row function of row 5000·t + p of the two arrays.
  The ten blocks tile the 50000 rows (row r lies in block r / 5000), hence the result array IS that function of the
  inputs at every index.
-/
import proofs.«125230_j86045374808683_1_alg».proof.Proof.Gen.KernelIdeal.Frame
import proofs.«125230_j86045374808683_1_alg».proof.Proof.Reg1Payload
import proofs.«125230_j86045374808683_1_alg».proof.Proof.Spec
import Idealize.ShloMosaic.Lib.Pipeline.Value
import Idealize.ShloMosaic.Lib.ValueIdx

set_option maxRecDepth 16384

noncomputable section

namespace Cert.KernelIdeal.Reg1V

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The two zero offsets, however they are spelt. -/
theorem hz : (![0, 0] : Fin 2 → Nat) = fun _ => 0 := funext fun a => by fin_cases a <;> rfl

/-- Where each window's block sits at grid point t: the two row-blocked inputs and the output at block row t,
    column block 0; the seven whole inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ t.val < 10 :=
  (by decide +kernel : ∀ t : Fin grid1.N, _)

/-- The ten grid points are numbered below ten. -/
theorem N_eq : cfg1.N = 10 := N_1

/-! ## Each input block, read where it lies in its array -/

/-- Block t of the node features is rows 5000·t … 5000·t + 4999 of the array, all 64 columns. -/
theorem blk_x (c : Dev nD) (t : Fin cfg1.N) (p : Fin 5000) (k : Fin 64) (r : Fin 50000) (hr : r.val = 5000 * t.val + p.val) :
    (iblk1 V c 0 t : Vec Ideal S5000x64 .f32) (ix2 p k) = (V c main_arg0 : S50000x64.Idx → EReal) (ix2 r k) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Block t of the averaged messages is the same rows of its array. -/
theorem blk_agg (c : Dev nD) (t : Fin cfg1.N) (p : Fin 5000) (k : Fin 64) (r : Fin 50000) (hr : r.val = 5000 * t.val + p.val) :
    (iblk1 V c 1 t : Vec Ideal S5000x64 .f32) (ix2 p k) = (V c main_v25 : S50000x64.Idx → EReal) (ix2 r k) := by
  obtain ⟨-, -, e0, e1, -⟩ := idx_facts t
  unfold iblk1
  rw [View.read_apply]
  show V c main_v25 _ = V c main_v25 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- So a row of the block is the matching row of the array. -/
theorem row_x (c : Dev nD) (t : Fin cfg1.N) (p : Fin 5000) (r : Fin 50000) (hr : r.val = 5000 * t.val + p.val) :
    Cert.Spec.row (iblk1 V c 0 t : Vec Ideal S5000x64 .f32) p = Cert.Spec.row (V c main_arg0 : Cert.Spec.Arr 50000 64) r :=
  funext fun k => blk_x V c t p k r hr

theorem row_agg (c : Dev nD) (t : Fin cfg1.N) (p : Fin 5000) (r : Fin 50000) (hr : r.val = 5000 * t.val + p.val) :
    Cert.Spec.row (iblk1 V c 1 t : Vec Ideal S5000x64 .f32) p = Cert.Spec.row (V c main_v25 : Cert.Spec.Arr 50000 64) r :=
  funext fun k => blk_agg V c t p k r hr

/-! ## The whole windows: their one block, at block (0, 0), is the array itself -/

/-- The first norm's scale row, read whole. -/
theorem blk_w2 (c : Dev nD) (t : Fin cfg1.N) :
    (iblk1 V c 2 t : Vec Ideal S1x64 .f32) = (V c main_v26 : S1x64.Idx → EReal) := by
  obtain ⟨-, -, -, -, e0, e1, -⟩ := idx_facts t
  funext x
  unfold iblk1
  rw [View.read_apply]
  show V c main_v26 _ = V c main_v26 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The first norm's shift row, read whole. -/
theorem blk_w3 (c : Dev nD) (t : Fin cfg1.N) :
    (iblk1 V c 3 t : Vec Ideal S1x64 .f32) = (V c main_v27 : S1x64.Idx → EReal) := by
  obtain ⟨-, -, -, -, -, -, e0, e1, -⟩ := idx_facts t
  funext x
  unfold iblk1
  rw [View.read_apply]
  show V c main_v27 _ = V c main_v27 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- The push-away weights' row, read whole. -/
theorem blk_w4 (c : Dev nD) (t : Fin cfg1.N) :
    (iblk1 V c 4 t : Vec Ideal S1x64 .f32) = (V c main_v28 : S1x64.Idx → EReal) := by
  obtain ⟨-, -, -, -, -, -, -, -, e0, e1, -⟩ := idx_facts t
  funext x
  unfold iblk1
  rw [View.read_apply]
  show V c main_v28 _ = V c main_v28 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The second norm's scale row, read whole. -/
theorem blk_w5 (c : Dev nD) (t : Fin cfg1.N) :
    (iblk1 V c 5 t : Vec Ideal S1x64 .f32) = (V c main_v29 : S1x64.Idx → EReal) := by
  obtain ⟨-, -, -, -, -, -, -, -, -, -, e0, e1, -⟩ := idx_facts t
  funext x
  unfold iblk1
  rw [View.read_apply]
  show V c main_v29 _ = V c main_v29 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- The second norm's shift row, read whole. -/
theorem blk_w6 (c : Dev nD) (t : Fin cfg1.N) :
    (iblk1 V c 6 t : Vec Ideal S1x64 .f32) = (V c main_v30 : S1x64.Idx → EReal) := by
  obtain ⟨-, -, -, -, -, -, -, -, -, -, -, -, e0, e1, -⟩ := idx_facts t
  funext x
  unfold iblk1
  rw [View.read_apply]
  show V c main_v30 _ = V c main_v30 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-- The second perceptron's first matrix, read whole. -/
theorem blk_w7 (c : Dev nD) (t : Fin cfg1.N) :
    (iblk1 V c 7 t : Vec Ideal S128x64 .f32) = (V c main_v31 : S128x64.Idx → EReal) := by
  obtain ⟨-, -, -, -, -, -, -, -, -, -, -, -, -, -, e0, e1, -⟩ := idx_facts t
  funext x
  unfold iblk1
  rw [View.read_apply]
  show V c main_v31 _ = V c main_v31 _
  congr 1
  funext a
  apply Fin.ext
  match a with
  | ⟨0, _⟩ => show win1_7.index t (0 : Fin 2) * 128 + 1 * (x 0).val = (x 0).val; rw [e0]; omega
  | ⟨1, _⟩ => show win1_7.index t (1 : Fin 2) * 64 + 1 * (x 1).val = (x 1).val; rw [e1]; omega

/-- The second perceptron's second matrix, read whole. -/
theorem blk_w8 (c : Dev nD) (t : Fin cfg1.N) :
    (iblk1 V c 8 t : Vec Ideal S64x64 .f32) = (V c main_v32 : S64x64.Idx → EReal) := by
  obtain ⟨-, -, -, -, -, -, -, -, -, -, -, -, -, -, -, -, e0, e1, -⟩ := idx_facts t
  funext x
  unfold iblk1
  rw [View.read_apply]
  show V c main_v32 _ = V c main_v32 _
  congr 1
  funext a
  apply Fin.ext
  match a with
  | ⟨0, _⟩ => show win1_8.index t (0 : Fin 2) * 64 + 1 * (x 0).val = (x 0).val; rw [e0]; omega
  | ⟨1, _⟩ => show win1_8.index t (1 : Fin 2) * 64 + 1 * (x 1).val = (x 1).val; rw [e1]; omega

/-! ## What one grid point writes back -/

/-- The body's single store fills the whole staging block, so the block after the body is the stored payload: at row p,
    column q the specification's node row function of row p of the two blocked inputs and of the parameters. -/
theorem stored_apply (x0 x1 : Vec Ideal S5000x64 .f32) (x2 x3 x4 x5 x6 : Vec Ideal S1x64 .f32)
    (x7 : Vec Ideal S128x64 .f32) (x8 : Vec Ideal S64x64 .f32) (p : Fin 5000) (q : Fin 64) :
    out1_9 (F := Ideal) x0 x1 x2 x3 x4 x5 x6 x7 x8 (ix2 p q)
      = Cert.Spec.nodeRow (Cert.Spec.row x0 p) (Cert.Spec.row x1 p) (Cert.Spec.row x2 0) (Cert.Spec.row x3 0)
          (Cert.Spec.row x4 0) (Cert.Spec.row x5 0) (Cert.Spec.row x6 0) x7 x8 q := by
  unfold out1_9
  rw [View.canon_unit_zero hz]
  simp only [View.ld_unit_zero (S := S5000x64) hz, View.ld_unit_zero (S := S1x64) hz,
    View.ld_unit_zero (S := S128x64) hz, View.ld_unit_zero (S := S64x64) hz]
  exact Cert.KernelIdeal.Reg1.pay1_apply x0 x1 x2 x3 x4 x5 x6 x7 x8 p q

/-- Where the output's block t lies in the result array: row p of the block is row 5000·t + p. -/
theorem emb_out (t : Fin cfg1.N) (p : Fin 5000) (q : Fin 64) (r : Fin 50000) (hr : r.val = 5000 * t.val + p.val) :
    ((cfg1.win 9).blk t).view.emb (ix2 p q) = (ix2 r q : S50000x64.Idx) := by
  obtain ⟨-, -, -, -, -, -, -, -, -, -, -, -, -, -, -, -, -, -, e0, e1, -⟩ := idx_facts t
  funext a
  apply Fin.ext
  match a with
  | ⟨0, _⟩ => show win1_9.index t (0 : Fin 2) * 5000 + 1 * p.val = r.val; rw [e0, hr]; omega
  | ⟨1, _⟩ => show win1_9.index t (1 : Fin 2) * 64 + 1 * q.val = q.val; rw [e1]; omega

/-- THE RESULT, as the specification's whole-array function of the arrays the kernel finds. -/
abbrev G (c : Dev nD) : S50000x64.Idx → EReal :=
  Cert.Spec.G1 (V c main_arg0) (V c main_v25) (V c main_v26) (V c main_v27) (V c main_v28) (V c main_v29) (V c main_v30)
    (V c main_v31) (V c main_v32)

/-- WHAT POINT t WRITES BACK is block t of the specification's result array. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  funext j
  obtain ⟨p, q, rfl⟩ : ∃ (p : Fin 5000) (q : Fin 64), j = ix2 p q := ⟨j 0, j 1, eq_ix2 j⟩
  have ht : t.val < 10 := (idx_facts t).2.2.2.2.2.2.2.2.2.2.2.2.2.2.2.2.2.2.2.2
  have hp : p.val < 5000 := p.isLt
  rw [View.read_apply, emb_out t p q ⟨5000 * t.val + p.val, by omega⟩ rfl]
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q) = _
  refine (stored_apply _ _ _ _ _ _ _ _ _ p q).trans ?_
  rw [row_x V c t p ⟨5000 * t.val + p.val, by omega⟩ rfl, row_agg V c t p ⟨5000 * t.val + p.val, by omega⟩ rfl,
    blk_w2 V c t, blk_w3 V c t, blk_w4 V c t, blk_w5 V c t, blk_w6 V c t, blk_w7 V c t, blk_w8 V c t]
  rfl

/-! ## The ten blocks tile the result array -/

/-- An index of the result array is in point t's block iff each coordinate is in the block's range on its axis. -/
theorem mem_blk (t : Fin cfg1.N) (i : S50000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v33).slice (win1_9.rect t)).set ↔ _
  rw [View.set_slice_whole, Rect.mem_set_unit]
  exact Iff.rfl

/-- Row r of the result lies in the block of point r / 5000, and every point writes its block back. -/
theorem cover (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  let t : Fin cfg1.N := ⟨(i 0).val / 5000, by rw [N_eq]; omega⟩
  have htv : t.val = (i 0).val / 5000 := rfl
  obtain ⟨-, -, -, -, -, -, -, -, -, -, -, -, -, -, -, -, -, -, e0, e1, -⟩ := idx_facts t
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    rw [e0, htv]; omega
  | ⟨1, _⟩ =>
    show win1_9.index t (1 : Fin 2) * 64 ≤ (i 1).val ∧ (i 1).val < win1_9.index t (1 : Fin 2) * 64 + 64
    rw [e1]; omega

/-! ## The result array after the region -/

/-- THE NODE KERNEL'S RESULT: after its ten grid points the output array is the specification's function of the node
    features, the averaged messages, the five parameter rows and the two weight matrices, as the region finds them. -/
theorem final1 (c : Dev nD) :
    (dat1 (F := Ideal) V c).arrAt 9 cfg1.N
      = Cert.Spec.G1 (V c main_arg0) (V c main_v25) (V c main_v26) (V c main_v27) (V c main_v28) (V c main_v29)
          (V c main_v30) (V c main_v31) (V c main_v32) :=
  (dat1 (F := Ideal) V c).arrAt_eq_of_cover 9 (G V c) (fun t _ => flushed_eq V c t) cover

end Cert.KernelIdeal.Reg1V

end
-- ==== Proof.RefMsg.lean ====
/-
  The reference's messages are the first perceptron of the gathered rows.

  The reference multiplies the 800000 gathered rows by the transposed first weight matrix, clamps at zero, and multiplies by the
  transposed second one, each product taken over whole arrays. Read at row `r`, column `j`, a product of a `[800000, 64]` array
  with a `[64, 64]` matrix is the sum over the 64 shared coordinates of row `r` times column `j`; so the element is
  `∑ k, max (∑ l, a (r, l) * B (l, k)) 0 * C (k, j)`, which is `Spec.mlpRow` of row `r` — the same function a block of 8000 rows
  goes through in the kernel. The gathered rows and the two transposed matrices stay variables: nothing of the gather is opened.
-/
import proofs.«125230_j86045374808683_1_alg».proof.Proof.RefRead
import proofs.«125230_j86045374808683_1_alg».proof.Proof.Spec
import Idealize.ShloMosaic.Lib.ValueIdx
import Idealize.ShloMosaic.PureOps.Ideal.Laws

noncomputable section

open scoped BigOperators

namespace Cert.ReferenceIdeal.RefMsg

open Cert.ReferenceIdeal Cert.ReferenceIdeal.Gen Cert.ReferenceIdeal.ReadP Idealize.ShloMosaic Idealize.ShloMosaic.ValueIdx

/-- Inside the second product at `(r, j)`, coordinate `k`, the first product's row is still `r` and its column `k`. -/
theorem inner_left (r : Fin 800000) (j k l : Fin 64) :
    lidx_main_v12 (lidx_main_v15 (ix2 r j) k) l = ix2 r l :=
  funext fun a => Fin.ext (by match a with | ⟨0, _⟩ => rfl | ⟨1, _⟩ => rfl)

theorem inner_right (r : Fin 800000) (j k l : Fin 64) :
    ridx_main_v12 (lidx_main_v15 (ix2 r j) k) l = ix2 l k :=
  funext fun a => Fin.ext (by match a with | ⟨0, _⟩ => rfl | ⟨1, _⟩ => rfl)

theorem outer_right (r : Fin 800000) (j k : Fin 64) :
    ridx_main_v15 (ix2 r j) k = ix2 k j :=
  funext fun a => Fin.ext (by match a with | ⟨0, _⟩ => rfl | ⟨1, _⟩ => rfl)

/-- THE MESSAGES of the reference are `G0` of its gathered rows and its two transposed weight matrices. -/
theorem msg_eq (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) :
    val_main_v15 (F := Ideal) x0 x1 x2 x3
      = Cert.Spec.G0 (val_main_v10 (F := Ideal) x0 x1) (val_main_v11 (F := Ideal) x2) (val_main_v14 (F := Ideal) x3) := by
  funext i
  obtain ⟨r, j, rfl⟩ : ∃ (r : Fin 800000) (j : Fin 64), i = ix2 r j := ⟨i 0, i 1, eq_ix2 i⟩
  rw [val_main_v15_apply]
  unfold Cert.Spec.G0 Cert.Spec.mlpRow Cert.Spec.row
  refine Finset.sum_congr rfl fun k _ => ?_
  rw [val_main_v13_apply, val_main_v12_apply, val_main_call0_v0_apply, val_main_call0_cst_apply, outer_right]
  generalize val_main_v10 (F := Ideal) x0 x1 = a
  generalize val_main_v11 (F := Ideal) x2 = b
  generalize val_main_v14 (F := Ideal) x3 = c
  simp only [inner_left, inner_right, Ideal.maximumf_def, Ideal.ofBits_def, Ideal.ofBits_zero_f32]

end Cert.ReferenceIdeal.RefMsg

end
-- ==== Proof.RefValue.lean ====
/-
  The reference program's node stages, read as mathematics.

  The whole-array reference computation on the extended reals treats the node rows `x` and the averaged messages `agg` one
  row at a time: it normalises the row of `agg`, pushes the node's own row away from it, and normalises again. This file reads
  those two normalised arrays at an entry `(r, k)` as the specification's row functions. The averaged messages and the five
  parameter rows are left as they stand: they enter only as arguments.

  The file has two kinds of statement. The first kind mentions no program: it says that a formula written out with sums,
  quotients and inverse square roots IS the specification's row function, which holds by unfolding the definitions. The second
  kind reads one stage of the reference at an entry `(r, k)` and rewrites it, step by step, into such a written-out formula.
-/
import proofs.«125230_j86045374808683_1_alg».proof.Proof.RefRead
import proofs.«125230_j86045374808683_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.SL.Sem Idealize.ShloMosaic.StableHlo

/-! ## The specification's row functions, written out (no program in sight) -/

/-- An entry of a row is the array's entry in that row. -/
theorem row_at {R C : Nat} (X : Cert.Spec.Arr R C) (r : Fin R) (k : Fin C) : Cert.Spec.row X r k = X (ix2 r k) := rfl

/-- The mean of a row: its sum over the word of `64.0`. -/
theorem mean_written (a : (⟨S50000x64, .f32⟩ : BufTy).Contents (Elt Ideal)) (r : Fin 50000) :
    Ideal.div (∑ x : Fin 64, a (ix2 r x)) (Ideal.ofBits .f32 0x42800000#32) = Cert.Spec.mean64 (Cert.Spec.row a r) := rfl

/-- The layer norm of a row, written out: the entry less the mean, times the inverse square root of the biased variance plus
    epsilon, times the scale, plus the shift. -/
theorem ln_written (a : (⟨S50000x64, .f32⟩ : BufTy).Contents (Elt Ideal)) (g b : (⟨S1x64, .f32⟩ : BufTy).Contents (Elt Ideal)) (r : Fin 50000) (k : Fin 64) :
    (a (ix2 r k) - Cert.Spec.mean64 (Cert.Spec.row a r))
        * Ideal.rsqrt (Ideal.div (∑ x : Fin 64, (a (ix2 r x) - Cert.Spec.mean64 (Cert.Spec.row a r))
            * (a (ix2 r x) - Cert.Spec.mean64 (Cert.Spec.row a r))) (Ideal.ofBits .f32 0x42800000#32) + (Ideal.ofBits .f32 0x3727C5AC#32))
        * g (ix2 (0 : Fin 1) k) + b (ix2 (0 : Fin 1) k)
      = Cert.Spec.lnRow (Cert.Spec.row a r) (Cert.Spec.row g 0) (Cert.Spec.row b 0) k := rfl

/-- The second normalisation is taken of the pushed-away row. -/
theorem fx_written (x a g1 b1 w g2 b2 : Fin 64 → EReal) :
    Cert.Spec.lnRow (fun k => x k + (x k - Cert.Spec.lnRow a g1 b1 k) * w k) g2 b2 = Cert.Spec.fxRow x a g1 b1 w g2 b2 := rfl

/-! ## Where each broadcast and each row sum of the reference reads -/

/-- A per-row quantity (a `50000 × 1` column) spread along the row is read at the row's one entry. -/
theorem col32 (r : Fin 50000) (k : Fin 64) : idx_main_v32 (ix2 r k) = ix2 r (0 : Fin 1) :=
  funext fun a => Fin.ext (by match a with | ⟨0, _⟩ => rfl | ⟨1, _⟩ => rfl)
theorem col39 (r : Fin 50000) (k : Fin 64) : idx_main_v39 (ix2 r k) = ix2 r (0 : Fin 1) :=
  funext fun a => Fin.ext (by match a with | ⟨0, _⟩ => rfl | ⟨1, _⟩ => rfl)
theorem col44 (r : Fin 50000) (k : Fin 64) : idx_main_v44 (ix2 r k) = ix2 r (0 : Fin 1) :=
  funext fun a => Fin.ext (by match a with | ⟨0, _⟩ => rfl | ⟨1, _⟩ => rfl)
theorem col61 (r : Fin 50000) (k : Fin 64) : idx_main_v61 (ix2 r k) = ix2 r (0 : Fin 1) :=
  funext fun a => Fin.ext (by match a with | ⟨0, _⟩ => rfl | ⟨1, _⟩ => rfl)
theorem col68 (r : Fin 50000) (k : Fin 64) : idx_main_v68 (ix2 r k) = ix2 r (0 : Fin 1) :=
  funext fun a => Fin.ext (by match a with | ⟨0, _⟩ => rfl | ⟨1, _⟩ => rfl)
theorem col73 (r : Fin 50000) (k : Fin 64) : idx_main_v73 (ix2 r k) = ix2 r (0 : Fin 1) :=
  funext fun a => Fin.ext (by match a with | ⟨0, _⟩ => rfl | ⟨1, _⟩ => rfl)
/-- A parameter row (a `1 × 64` array) spread over all rows is read at its own column. -/
theorem par47 (r : Fin 50000) (k : Fin 64) : idx_main_v47 (ix2 r k) = ix2 (0 : Fin 1) k :=
  funext fun a => Fin.ext (by match a with | ⟨0, _⟩ => rfl | ⟨1, _⟩ => rfl)
theorem par50 (r : Fin 50000) (k : Fin 64) : idx_main_v50 (ix2 r k) = ix2 (0 : Fin 1) k :=
  funext fun a => Fin.ext (by match a with | ⟨0, _⟩ => rfl | ⟨1, _⟩ => rfl)
theorem par54 (r : Fin 50000) (k : Fin 64) : idx_main_v54 (ix2 r k) = ix2 (0 : Fin 1) k :=
  funext fun a => Fin.ext (by match a with | ⟨0, _⟩ => rfl | ⟨1, _⟩ => rfl)
theorem par76 (r : Fin 50000) (k : Fin 64) : idx_main_v76 (ix2 r k) = ix2 (0 : Fin 1) k :=
  funext fun a => Fin.ext (by match a with | ⟨0, _⟩ => rfl | ⟨1, _⟩ => rfl)
theorem par79 (r : Fin 50000) (k : Fin 64) : idx_main_v79 (ix2 r k) = ix2 (0 : Fin 1) k :=
  funext fun a => Fin.ext (by match a with | ⟨0, _⟩ => rfl | ⟨1, _⟩ => rfl)
/-- The column form of a per-row quantity reads the rank-1 array at the row. -/
theorem drop29 (r : Fin 50000) (c : Fin 1) : idx_main_v29 (ix2 r c) = ix1 r :=
  funext fun a => Fin.ext (by match a with | ⟨0, _⟩ => rfl)
theorem drop36 (r : Fin 50000) (c : Fin 1) : idx_main_v36 (ix2 r c) = ix1 r :=
  funext fun a => Fin.ext (by match a with | ⟨0, _⟩ => rfl)
theorem drop58 (r : Fin 50000) (c : Fin 1) : idx_main_v58 (ix2 r c) = ix1 r :=
  funext fun a => Fin.ext (by match a with | ⟨0, _⟩ => rfl)
theorem drop65 (r : Fin 50000) (c : Fin 1) : idx_main_v65 (ix2 r c) = ix1 r :=
  funext fun a => Fin.ext (by match a with | ⟨0, _⟩ => rfl)
/-- A sum along a row runs over the row's entries. -/
theorem along28 (r : Fin 50000) (k : Fin 64) : idx_main_v28 (ix1 r) k = ix2 r k :=
  funext fun a => Fin.ext (by match a with | ⟨0, _⟩ => rfl | ⟨1, _⟩ => rfl)
theorem along35 (r : Fin 50000) (k : Fin 64) : idx_main_v35 (ix1 r) k = ix2 r k :=
  funext fun a => Fin.ext (by match a with | ⟨0, _⟩ => rfl | ⟨1, _⟩ => rfl)
theorem along57 (r : Fin 50000) (k : Fin 64) : idx_main_v57 (ix1 r) k = ix2 r k :=
  funext fun a => Fin.ext (by match a with | ⟨0, _⟩ => rfl | ⟨1, _⟩ => rfl)
theorem along64 (r : Fin 50000) (k : Fin 64) : idx_main_v64 (ix1 r) k = ix2 r k :=
  funext fun a => Fin.ext (by match a with | ⟨0, _⟩ => rfl | ⟨1, _⟩ => rfl)
/-! ## The first normalisation, stage by stage (of the averaged messages, left as they stand) -/

/-- The mean of row `r`: the row's sum, started from zero, over the word of `64.0`. -/
theorem mean1_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (r : Fin 50000) (c : Fin 1) :
    val_main_v31 (F := Ideal) x0 x1 x2 x3 (ix2 r c) = Cert.Spec.mean64 (Cert.Spec.row (val_main_v27 (F := Ideal) x0 x1 x2 x3) r) := by
  rw [val_main_v31_apply, val_main_v30_apply, val_main_cst_5_apply, val_main_v29_apply, drop29, val_main_v28_apply,
    val_main_cst_4_apply, Ideal.hostDivf_def, Ideal.ofBits_def, Ideal.ofBits_def, Ideal.ofBits_zero_f32, zero_add]
  simp only [along28]
  exact mean_written (val_main_v27 (F := Ideal) x0 x1 x2 x3) r

/-- An entry less its row's mean, as the variance uses it. -/
theorem cen1_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (r : Fin 50000) (k : Fin 64) :
    val_main_v33 (F := Ideal) x0 x1 x2 x3 (ix2 r k) = (val_main_v27 (F := Ideal) x0 x1 x2 x3) (ix2 r k) - Cert.Spec.mean64 (Cert.Spec.row (val_main_v27 (F := Ideal) x0 x1 x2 x3) r) := by
  rw [val_main_v33_apply, val_main_v32_apply, col32, mean1_apply, Ideal.subf_def]

/-- The same difference, as the normalised value uses it. -/
theorem cen1'_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (r : Fin 50000) (k : Fin 64) :
    val_main_v40 (F := Ideal) x0 x1 x2 x3 (ix2 r k) = (val_main_v27 (F := Ideal) x0 x1 x2 x3) (ix2 r k) - Cert.Spec.mean64 (Cert.Spec.row (val_main_v27 (F := Ideal) x0 x1 x2 x3) r) := by
  rw [val_main_v40_apply, val_main_v39_apply, col39, mean1_apply, Ideal.subf_def]

/-- The squared difference. -/
theorem sq1_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (r : Fin 50000) (k : Fin 64) :
    val_main_v34 (F := Ideal) x0 x1 x2 x3 (ix2 r k)
      = ((val_main_v27 (F := Ideal) x0 x1 x2 x3) (ix2 r k) - Cert.Spec.mean64 (Cert.Spec.row (val_main_v27 (F := Ideal) x0 x1 x2 x3) r))
        * ((val_main_v27 (F := Ideal) x0 x1 x2 x3) (ix2 r k) - Cert.Spec.mean64 (Cert.Spec.row (val_main_v27 (F := Ideal) x0 x1 x2 x3) r)) := by
  rw [val_main_v34_apply, cen1_apply, Ideal.mulf_def]

/-- The biased variance of row `r`: the mean of the squared differences. -/
theorem var1_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (r : Fin 50000) (c : Fin 1) :
    val_main_v38 (F := Ideal) x0 x1 x2 x3 (ix2 r c)
      = Ideal.div (∑ x : Fin 64, ((val_main_v27 (F := Ideal) x0 x1 x2 x3) (ix2 r x) - Cert.Spec.mean64 (Cert.Spec.row (val_main_v27 (F := Ideal) x0 x1 x2 x3) r))
          * ((val_main_v27 (F := Ideal) x0 x1 x2 x3) (ix2 r x) - Cert.Spec.mean64 (Cert.Spec.row (val_main_v27 (F := Ideal) x0 x1 x2 x3) r))) (Ideal.ofBits .f32 0x42800000#32) := by
  rw [val_main_v38_apply, val_main_v37_apply, val_main_cst_7_apply, val_main_v36_apply, drop36, val_main_v35_apply,
    val_main_cst_6_apply, Ideal.hostDivf_def, Ideal.ofBits_def, Ideal.ofBits_def, Ideal.ofBits_zero_f32, zero_add]
  simp only [along35, sq1_apply]

/-- THE FIRST NORMALISATION. Entry `(r, k)` of the reference's normalised average is the layer norm of row `r` of the averaged
    messages with the first pair of parameter rows. -/
theorem ln1_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 : (⟨S64, .f32⟩ : BufTy).Contents (Elt Ideal)) (r : Fin 50000) (k : Fin 64) :
    val_main_v51 (F := Ideal) x0 x1 x2 x3 x4 x5 (ix2 r k)
      = Cert.Spec.lnRow (Cert.Spec.row (val_main_v27 (F := Ideal) x0 x1 x2 x3) r) (Cert.Spec.row (val_main_v46 (F := Ideal) x4) 0) (Cert.Spec.row (val_main_v49 (F := Ideal) x5) 0) k := by
  rw [val_main_v51_apply, val_main_v50_apply, par50, val_main_v48_apply, val_main_v47_apply, par47, val_main_v45_apply,
    val_main_v44_apply, col44, val_main_v43_apply, val_main_v42_apply, val_main_v41_apply, val_main_cst_8_apply, var1_apply,
    cen1'_apply, Ideal.addf_def, Ideal.addf_def, Ideal.mulf_def, Ideal.mulf_def, Ideal.hostUnary_rsqrt_def, Ideal.ofBits_def]
  exact ln_written (val_main_v27 (F := Ideal) x0 x1 x2 x3) (val_main_v46 (F := Ideal) x4) (val_main_v49 (F := Ideal) x5) r k

/-! ## The node's own row pushed away from the normalised average -/

/-- Entry `(r, k)` of the pushed-away array: `x + (x - ln₁) * w`, with `ln₁` the first normalisation and `w` the third
    parameter row. -/
theorem pre2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (k : Fin 64) :
    val_main_v56 (F := Ideal) x0 x1 x2 x3 x4 x5 x6 (ix2 r k)
      = x0 (ix2 r k) + (x0 (ix2 r k) - val_main_v51 (F := Ideal) x0 x1 x2 x3 x4 x5 (ix2 r k)) * val_main_v53 (F := Ideal) x6 (ix2 (0 : Fin 1) k) := by
  rw [val_main_v56_apply, val_main_v55_apply, val_main_v54_apply, par54, val_main_v52_apply, Ideal.addf_def, Ideal.mulf_def,
    Ideal.subf_def]

/-! ## The second normalisation, stage by stage (of the pushed-away array, left as it stands) -/

/-- The mean of row `r` of the pushed-away array. -/
theorem mean2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (c : Fin 1) :
    val_main_v60 (F := Ideal) x0 x1 x2 x3 x4 x5 x6 (ix2 r c) = Cert.Spec.mean64 (Cert.Spec.row (val_main_v56 (F := Ideal) x0 x1 x2 x3 x4 x5 x6) r) := by
  rw [val_main_v60_apply, val_main_v59_apply, val_main_cst_10_apply, val_main_v58_apply, drop58, val_main_v57_apply,
    val_main_cst_9_apply, Ideal.hostDivf_def, Ideal.ofBits_def, Ideal.ofBits_def, Ideal.ofBits_zero_f32, zero_add]
  simp only [along57]
  exact mean_written (val_main_v56 (F := Ideal) x0 x1 x2 x3 x4 x5 x6) r

/-- An entry less its row's mean, as the variance uses it. -/
theorem cen2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (k : Fin 64) :
    val_main_v62 (F := Ideal) x0 x1 x2 x3 x4 x5 x6 (ix2 r k) = (val_main_v56 (F := Ideal) x0 x1 x2 x3 x4 x5 x6) (ix2 r k) - Cert.Spec.mean64 (Cert.Spec.row (val_main_v56 (F := Ideal) x0 x1 x2 x3 x4 x5 x6) r) := by
  rw [val_main_v62_apply, val_main_v61_apply, col61, mean2_apply, Ideal.subf_def]

/-- The same difference, as the normalised value uses it. -/
theorem cen2'_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (k : Fin 64) :
    val_main_v69 (F := Ideal) x0 x1 x2 x3 x4 x5 x6 (ix2 r k) = (val_main_v56 (F := Ideal) x0 x1 x2 x3 x4 x5 x6) (ix2 r k) - Cert.Spec.mean64 (Cert.Spec.row (val_main_v56 (F := Ideal) x0 x1 x2 x3 x4 x5 x6) r) := by
  rw [val_main_v69_apply, val_main_v68_apply, col68, mean2_apply, Ideal.subf_def]

/-- The squared difference. -/
theorem sq2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (k : Fin 64) :
    val_main_v63 (F := Ideal) x0 x1 x2 x3 x4 x5 x6 (ix2 r k)
      = ((val_main_v56 (F := Ideal) x0 x1 x2 x3 x4 x5 x6) (ix2 r k) - Cert.Spec.mean64 (Cert.Spec.row (val_main_v56 (F := Ideal) x0 x1 x2 x3 x4 x5 x6) r))
        * ((val_main_v56 (F := Ideal) x0 x1 x2 x3 x4 x5 x6) (ix2 r k) - Cert.Spec.mean64 (Cert.Spec.row (val_main_v56 (F := Ideal) x0 x1 x2 x3 x4 x5 x6) r)) := by
  rw [val_main_v63_apply, cen2_apply, Ideal.mulf_def]

/-- The biased variance of row `r` of the pushed-away array. -/
theorem var2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) (c : Fin 1) :
    val_main_v67 (F := Ideal) x0 x1 x2 x3 x4 x5 x6 (ix2 r c)
      = Ideal.div (∑ x : Fin 64, ((val_main_v56 (F := Ideal) x0 x1 x2 x3 x4 x5 x6) (ix2 r x) - Cert.Spec.mean64 (Cert.Spec.row (val_main_v56 (F := Ideal) x0 x1 x2 x3 x4 x5 x6) r))
          * ((val_main_v56 (F := Ideal) x0 x1 x2 x3 x4 x5 x6) (ix2 r x) - Cert.Spec.mean64 (Cert.Spec.row (val_main_v56 (F := Ideal) x0 x1 x2 x3 x4 x5 x6) r))) (Ideal.ofBits .f32 0x42800000#32) := by
  rw [val_main_v67_apply, val_main_v66_apply, val_main_cst_12_apply, val_main_v65_apply, drop65, val_main_v64_apply,
    val_main_cst_11_apply, Ideal.hostDivf_def, Ideal.ofBits_def, Ideal.ofBits_def, Ideal.ofBits_zero_f32, zero_add]
  simp only [along64, sq2_apply]

/-- Entry `(r, k)` of the second normalised array is the layer norm of row `r` of the pushed-away array with the second pair of
    parameter rows. -/
theorem ln2_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 x7 x8 : (⟨S64, .f32⟩ : BufTy).Contents (Elt Ideal)) (r : Fin 50000) (k : Fin 64) :
    val_main_v80 (F := Ideal) x0 x1 x2 x3 x4 x5 x6 x7 x8 (ix2 r k)
      = Cert.Spec.lnRow (Cert.Spec.row (val_main_v56 (F := Ideal) x0 x1 x2 x3 x4 x5 x6) r) (Cert.Spec.row (val_main_v75 (F := Ideal) x7) 0) (Cert.Spec.row (val_main_v78 (F := Ideal) x8) 0) k := by
  rw [val_main_v80_apply, val_main_v79_apply, par79, val_main_v77_apply, val_main_v76_apply, par76, val_main_v74_apply,
    val_main_v73_apply, col73, val_main_v72_apply, val_main_v71_apply, val_main_v70_apply, val_main_cst_13_apply, var2_apply,
    cen2'_apply, Ideal.addf_def, Ideal.addf_def, Ideal.mulf_def, Ideal.mulf_def, Ideal.hostUnary_rsqrt_def, Ideal.ofBits_def]
  exact ln_written (val_main_v56 (F := Ideal) x0 x1 x2 x3 x4 x5 x6) (val_main_v75 (F := Ideal) x7) (val_main_v78 (F := Ideal) x8) r k

/-- Row `r` of the pushed-away array, as a function of the column: the node's row, the first normalisation of the averaged
    messages' row and the third parameter row, combined entry by entry. -/
theorem pre2_row (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 : (⟨S64, .f32⟩ : BufTy).Contents (Elt Ideal)) (r : Fin 50000) :
    Cert.Spec.row (val_main_v56 (F := Ideal) x0 x1 x2 x3 x4 x5 x6) r
      = fun k => Cert.Spec.row x0 r k
          + (Cert.Spec.row x0 r k
              - Cert.Spec.lnRow (Cert.Spec.row (val_main_v27 (F := Ideal) x0 x1 x2 x3) r) (Cert.Spec.row (val_main_v46 (F := Ideal) x4) 0) (Cert.Spec.row (val_main_v49 (F := Ideal) x5) 0) k)
            * Cert.Spec.row (val_main_v53 (F := Ideal) x6) 0 k := by
  funext k
  rw [row_at, row_at, row_at, pre2_apply, ln1_apply]

/-- THE SECOND NORMALISATION. Entry `(r, k)` of the reference's second normalised array is the specification's `fxRow`: the layer
    norm, with the second pair of parameter rows, of the node's row pushed away from the first normalisation. -/
theorem fx_apply (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 x7 x8 : (⟨S64, .f32⟩ : BufTy).Contents (Elt Ideal)) (r : Fin 50000) (k : Fin 64) :
    val_main_v80 (F := Ideal) x0 x1 x2 x3 x4 x5 x6 x7 x8 (ix2 r k)
      = Cert.Spec.fxRow (Cert.Spec.row x0 r) (Cert.Spec.row (val_main_v27 (F := Ideal) x0 x1 x2 x3) r) (Cert.Spec.row (val_main_v46 (F := Ideal) x4) 0)
          (Cert.Spec.row (val_main_v49 (F := Ideal) x5) 0) (Cert.Spec.row (val_main_v53 (F := Ideal) x6) 0) (Cert.Spec.row (val_main_v75 (F := Ideal) x7) 0)
          (Cert.Spec.row (val_main_v78 (F := Ideal) x8) 0) k := by
  rw [ln2_apply, pre2_row, fx_written]

end Cert.ReferenceIdeal.RefValue

end
-- ==== Proof.RefTail.lean ====
/-
  The reference's last four operations, read at an index: the two normalised arrays side by side, then the second perceptron.

  Concatenating two `[50000, 64]` arrays along the columns puts, in row `r`, the first array's row before the second's:
  column `k < 64` reads the first at `(r, k)`, column `k ≥ 64` the second at `(r, k - 64)` (`Spec.catRow`). The two products
  that follow, with the clamp at zero between them, are at `(r, j)` the sums over the shared coordinates, so the result's
  element is `Spec.mlpRow` of the concatenated row. What the two concatenated arrays hold is taken as given, row by row.
-/
import proofs.«125230_j86045374808683_1_alg».proof.Proof.RefRead
import proofs.«125230_j86045374808683_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefTail

open Cert.ReferenceIdeal Cert.ReferenceIdeal.Gen Cert.ReferenceIdeal.ReadP Idealize.ShloMosaic Idealize.ShloMosaic.ValueIdx

/-- Two `[50000, 64]` arrays joined along the columns, at row `r`, column `k`: the rows side by side. -/
theorem cat_apply (u v : (⟨S50000x64, .f32⟩ : BufTy).Contents (Elt Ideal)) (r : Fin 50000) (k : Fin 128) :
    concatenate S50000x128 1 [⟨S50000x64, u⟩, ⟨S50000x64, v⟩] concatenates_S50000x64_S50000x64_S50000x128_d1 (ix2 r k)
      = Cert.Spec.catRow (Cert.Spec.row u r) (Cert.Spec.row v r) k := by
  unfold Cert.Spec.catRow
  by_cases h : k.val < 64
  · rw [dif_pos h]
    exact concatenate_pair_apply_left (1 : Fin S50000x128.rank) u v _ (ix2 r k) rfl (ix2 r ⟨k.val, h⟩) (fun b => by
      match b with
      | ⟨0, _⟩ => rfl
      | ⟨1, _⟩ => rfl)
  · rw [dif_neg h]
    exact concatenate_pair_apply_right (1 : Fin S50000x128.rank) u v _ (ix2 r k) rfl rfl
      (ix2 r ⟨k.val - 64, by have := k.isLt; omega⟩) (fun b hb => by
        match b with
        | ⟨0, _⟩ => rfl
        | ⟨1, _⟩ => exact absurd rfl hb) (by show k.val - 64 + 64 = k.val; omega)

/-- Row `r` of an array at column `k` is the array at `(r, k)` — stated over a variable, so that it is only ever instantiated. -/
theorem row_at {R C : Nat} (X : Cert.Spec.Arr R C) (r : Fin R) (k : Fin C) : Cert.Spec.row X r k = X (ix2 r k) := rfl

/-- Inside the last product at `(r, j)`, coordinate `k2`, the inner product's row is `r` and its column `k2`. -/
theorem inner_left (r : Fin 50000) (j k2 : Fin 64) (k1 : Fin 128) :
    lidx_main_v83 (lidx_main_v86 (ix2 r j) k2) k1 = ix2 r k1 :=
  funext fun a => Fin.ext (by match a with | ⟨0, _⟩ => rfl | ⟨1, _⟩ => rfl)

theorem inner_right (r : Fin 50000) (j k2 : Fin 64) (k1 : Fin 128) :
    ridx_main_v83 (lidx_main_v86 (ix2 r j) k2) k1 = ix2 k1 k2 :=
  funext fun a => Fin.ext (by match a with | ⟨0, _⟩ => rfl | ⟨1, _⟩ => rfl)

theorem outer_right (r : Fin 50000) (j k2 : Fin 64) :
    ridx_main_v86 (ix2 r j) k2 = ix2 k2 j :=
  funext fun a => Fin.ext (by match a with | ⟨0, _⟩ => rfl | ⟨1, _⟩ => rfl)

/-- THE RESULT from its two normalised rows: if row `r` of the second layer norm's array is `fx r` and row `r` of the first's is
    `ln r`, the reference's result at `(r, j)` is the second perceptron on `[fx r | ln r]`. -/
theorem out_of_rows (x0 : (⟨S50000x64, .f32⟩ : BufTy).Contents (Elt Ideal)) (x1 : (⟨S2x800000, .i32⟩ : BufTy).Contents (Elt Ideal)) (x2 x3 : (⟨S64x64, .f32⟩ : BufTy).Contents (Elt Ideal)) (x4 x5 x6 x7 x8 : (⟨S64, .f32⟩ : BufTy).Contents (Elt Ideal)) (x9 : (⟨S64x128, .f32⟩ : BufTy).Contents (Elt Ideal)) (x10 : (⟨S64x64, .f32⟩ : BufTy).Contents (Elt Ideal))
    (fx ln : Fin 50000 → Fin 64 → EReal)
    (hfx : ∀ (r : Fin 50000) (k : Fin 64), val_main_v80 (F := Ideal) x0 x1 x2 x3 x4 x5 x6 x7 x8 (ix2 r k) = fx r k)
    (hln : ∀ (r : Fin 50000) (k : Fin 64), val_main_v51 (F := Ideal) x0 x1 x2 x3 x4 x5 (ix2 r k) = ln r k)
    (r : Fin 50000) (j : Fin 64) :
    val_main_v86 (F := Ideal) x0 x1 x2 x3 x4 x5 x6 x7 x8 x9 x10 (ix2 r j)
      = Cert.Spec.mlpRow (Cert.Spec.catRow (fx r) (ln r)) (val_main_v82 (F := Ideal) x9) (val_main_v85 (F := Ideal) x10) j := by
  have hcat : ∀ k1 : Fin 128, val_main_v81 (F := Ideal) x0 x1 x2 x3 x4 x5 x6 x7 x8 (ix2 r k1) = Cert.Spec.catRow (fx r) (ln r) k1 := by
    intro k1
    unfold val_main_v81
    rw [cat_apply]
    have e1 : Cert.Spec.row (val_main_v80 (F := Ideal) x0 x1 x2 x3 x4 x5 x6 x7 x8) r = fx r :=
      funext fun k => (row_at (R := 50000) (C := 64) (val_main_v80 (F := Ideal) x0 x1 x2 x3 x4 x5 x6 x7 x8) r k).trans (hfx r k)
    have e2 : Cert.Spec.row (val_main_v51 (F := Ideal) x0 x1 x2 x3 x4 x5) r = ln r :=
      funext fun k => (row_at (R := 50000) (C := 64) (val_main_v51 (F := Ideal) x0 x1 x2 x3 x4 x5) r k).trans (hln r k)
    rw [e1, e2]
  rw [val_main_v86_apply]
  unfold Cert.Spec.mlpRow
  refine Finset.sum_congr rfl fun k2 _ => ?_
  rw [val_main_v84_apply, val_main_v83_apply, val_main_call1_v0_apply, val_main_call1_cst_apply, outer_right]
  simp only [inner_left, inner_right, hcat, Ideal.maximumf_def, Ideal.ofBits_def, Ideal.ofBits_zero_f32]

end Cert.ReferenceIdeal.RefTail

end
-- ==== Proof.RefOut.lean ====
/-
  The reference's result is the node function of its arrays.

  Row `r` of the first layer norm's array is `lnRow` of row `r` of the averaged messages, row `r` of the second's is `fxRow` of
  row `r` of `x` and of the averaged messages (the two row lemmas of the layer-norm module); the last four operations put the two
  rows side by side and apply the second perceptron (`RefTail.out_of_rows`). That is `Spec.G1` at `(r, j)`, by its definition.
  The averaged messages, the parameter rows and the transposed weights stay closed terms throughout.
-/
import proofs.«125230_j86045374808683_1_alg».proof.Proof.RefRead
import proofs.«125230_j86045374808683_1_alg».proof.Proof.RefValue
import proofs.«125230_j86045374808683_1_alg».proof.Proof.RefTail
import proofs.«125230_j86045374808683_1_alg».proof.Proof.Spec
import Idealize.ShloMosaic.Lib.ValueIdx

noncomputable section

namespace Cert.ReferenceIdeal.RefOut

open Cert.ReferenceIdeal Cert.ReferenceIdeal.Gen Cert.ReferenceIdeal.ReadP Idealize.ShloMosaic Idealize.ShloMosaic.ValueIdx
open Cert.Spec (Arr row)

/-- `G1` at `(r, j)`, written out: the second perceptron on `[fx | ln₁]` of row `r`. Over variables only. -/
theorem G1_at (X AGG : Arr 50000 64) (g1 b1 w g2 b2 : Arr 1 64) (A : Arr 128 64) (B : Arr 64 64) (r : Fin 50000) (j : Fin 64) :
    Cert.Spec.G1 X AGG g1 b1 w g2 b2 A B (ix2 r j)
      = Cert.Spec.mlpRow (Cert.Spec.catRow (Cert.Spec.fxRow (row X r) (row AGG r) (row g1 0) (row b1 0) (row w 0) (row g2 0) (row b2 0))
          (Cert.Spec.lnRow (row AGG r) (row g1 0) (row b1 0))) A B j := rfl

/-- THE RESULT of the reference is `G1` of `x`, its averaged messages, its five parameter rows and its two transposed weights. -/
theorem out_eq (x0 : (⟨S50000x64, .f32⟩ : BufTy).Contents (Elt Ideal)) (x1 : (⟨S2x800000, .i32⟩ : BufTy).Contents (Elt Ideal)) (x2 x3 : (⟨S64x64, .f32⟩ : BufTy).Contents (Elt Ideal)) (x4 x5 x6 x7 x8 : (⟨S64, .f32⟩ : BufTy).Contents (Elt Ideal)) (x9 : (⟨S64x128, .f32⟩ : BufTy).Contents (Elt Ideal)) (x10 : (⟨S64x64, .f32⟩ : BufTy).Contents (Elt Ideal)) :
    val_main_v86 (F := Ideal) x0 x1 x2 x3 x4 x5 x6 x7 x8 x9 x10
      = Cert.Spec.G1 x0 (val_main_v27 (F := Ideal) x0 x1 x2 x3) (val_main_v46 (F := Ideal) x4) (val_main_v49 (F := Ideal) x5)
          (val_main_v53 (F := Ideal) x6) (val_main_v75 (F := Ideal) x7) (val_main_v78 (F := Ideal) x8) (val_main_v82 (F := Ideal) x9)
          (val_main_v85 (F := Ideal) x10) := by
  funext i
  obtain ⟨r, j, rfl⟩ : ∃ (r : Fin 50000) (j : Fin 64), i = ix2 r j := ⟨i 0, i 1, eq_ix2 i⟩
  rw [Cert.ReferenceIdeal.RefTail.out_of_rows x0 x1 x2 x3 x4 x5 x6 x7 x8 x9 x10
    (fun r => Cert.Spec.fxRow (row x0 r) (row (val_main_v27 (F := Ideal) x0 x1 x2 x3) r) (row (val_main_v46 (F := Ideal) x4) 0)
      (row (val_main_v49 (F := Ideal) x5) 0) (row (val_main_v53 (F := Ideal) x6) 0) (row (val_main_v75 (F := Ideal) x7) 0) (row (val_main_v78 (F := Ideal) x8) 0))
    (fun r => Cert.Spec.lnRow (row (val_main_v27 (F := Ideal) x0 x1 x2 x3) r) (row (val_main_v46 (F := Ideal) x4) 0) (row (val_main_v49 (F := Ideal) x5) 0))
    (fun r k => Cert.ReferenceIdeal.RefValue.fx_apply x0 x1 x2 x3 x4 x5 x6 x7 x8 r k)
    (fun r k => Cert.ReferenceIdeal.RefValue.ln1_apply x0 x1 x2 x3 x4 x5 r k) r j]
  exact (G1_at x0 (val_main_v27 (F := Ideal) x0 x1 x2 x3) (val_main_v46 (F := Ideal) x4) (val_main_v49 (F := Ideal) x5)
    (val_main_v53 (F := Ideal) x6) (val_main_v75 (F := Ideal) x7) (val_main_v78 (F := Ideal) x8) (val_main_v82 (F := Ideal) x9)
    (val_main_v85 (F := Ideal) x10) r j).symm

end Cert.ReferenceIdeal.RefOut

end
-- ==== Proof.Bridge.lean ====
/-
  The two programs compute one function of their eleven arguments.

  KERNEL SIDE. The kernel program's result buffer ends at what region 1's write-backs leave. Region 1's blocks of 5000 node rows
  tile its output, and each stored row is the node function of the matching rows of `x` and of the averaged messages, so the array
  is `Spec.G1` of region 1's input arrays; those are the arguments as launched, the parameter vectors as rows, the weights
  transposed, and the scatter-mean of what region 0 left. Region 0's blocks of 8000 edge rows tile ITS output, each stored row
  the first perceptron of the matching gathered row, so that array is `Spec.G0` of the gathered rows and the transposed weights.
  Composed: `result`.

  REFERENCE SIDE. The reference applies the same operations to whole arrays. Its gather, its scatter-mean and its transposes are
  the kernel program's host operations word for word; its broadcast of a parameter vector along a new unit axis is the kernel
  program's reshape of it to one row; its perceptrons and layer norms, read at an index, are the same row functions. So its
  result is `result` of its arguments too.
-/
import proofs.«125230_j86045374808683_1_alg».proof.Proof.HostStretches
import proofs.«125230_j86045374808683_1_alg».proof.Proof.RunNamed
import proofs.«125230_j86045374808683_1_alg».proof.Proof.Reg0Value
import proofs.«125230_j86045374808683_1_alg».proof.Proof.Reg1Value
import proofs.«125230_j86045374808683_1_alg».proof.Proof.RefRead
import proofs.«125230_j86045374808683_1_alg».proof.Proof.RefMsg
import proofs.«125230_j86045374808683_1_alg».proof.Proof.RefOut
import proofs.«125230_j86045374808683_1_alg».proof.Proof.Spec
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.ValueIdx

/-! ## The kernel program -/

section KernelSide

open Cert.KernelIdeal Cert.KernelIdeal.Gen Cert.KernelIdeal.Host

/-- The layer's result as one function of the eleven arguments: the node function `G1` of `x`, of the scatter-mean of the
    messages `G0` of the gathered rows, of the parameter rows and of the transposed weights. -/
def result (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 x5 x6 x7 x8 : (⟨S64, .f32⟩ : BufTy).Contents (Elt Ideal))
    (x9 : (⟨S64x128, .f32⟩ : BufTy).Contents (Elt Ideal)) (x10 : (⟨S64x64, .f32⟩ : BufTy).Contents (Elt Ideal)) :
    (⟨S50000x64, .f32⟩ : BufTy).Contents (Elt Ideal) :=
  Cert.Spec.G1 x0
    (averaged (dstIdx x1) (Cert.Spec.G0 (gathered x0 x1) (transpose S64x64 [1, 0] x2 transposes_S64x64_S64x64_1_0) (transpose S64x64 [1, 0] x3 transposes_S64x64_S64x64_1_0)))
    (shapeCast S1x64 x4 shapeCasts_S64_S1x64) (shapeCast S1x64 x5 shapeCasts_S64_S1x64) (shapeCast S1x64 x6 shapeCasts_S64_S1x64)
    (shapeCast S1x64 x7 shapeCasts_S64_S1x64) (shapeCast S1x64 x8 shapeCasts_S64_S1x64)
    (transpose S128x64 [1, 0] x9 transposes_S64x128_S128x64_1_0) (transpose S64x64 [1, 0] x10 transposes_S64x64_S64x64_1_0)

variable (m : (ℓ : Loc nD τ sig) → Buf (Elt Ideal) ℓ) (ρ : Dev nD → PrngReg)

/-- What the result buffer holds after region 1: `result` of the arguments as launched. Region 1's array by its blocks
    (`Reg1V.final1`), its inputs by the second host stretch, the messages by region 0's blocks (`Reg0.final0`), their inputs by
    the first host stretch. -/
theorem kernel_value (c : Dev nD) :
    W4 m ρ c (Proc.devRef .tc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 9).trans ?_
  rw [Cert.KernelIdeal.Reg1V.final1 (V3 m ρ) c, V3_arg0, V3_v25, V3_v26, V3_v27, V3_v28, V3_v29, V3_v30, V3_v31, V3_v32,
    Cert.KernelIdeal.Reg0.final0 (V1 m ρ) c, V1_v10, V1_v11, V1_v12]
  rfl

/-- The kernel program's run: it terminates, nothing faulting, with the result buffer at `result` of the arguments and the
    arguments unchanged. -/
theorem kernel_run : θ_run defs (onTc (τ := τ) (main (F := Ideal))) ⟨m, fun _ => 0, ρ⟩ (fun r => ∀ c : Dev nD,
      r.2.mem ((c.tc : Thread nD τ).loc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kernel_value m ρ c), (h c).2⟩) (run_named m ρ)

end KernelSide

/-! ## The reference -/

section ReferenceSide

open Cert.ReferenceIdeal Cert.ReferenceIdeal.Gen Cert.ReferenceIdeal.ReadP
open Cert.KernelIdeal.Host (gathered dstIdx averaged srcIdx)

variable {F : FTy → Type} [FloatOps F]

/-- The reference gathers the same rows: its first operations are the kernel program's, word for word. -/
theorem gather_same (x0 : (⟨S50000x64, .f32⟩ : BufTy).Contents (Elt F)) (x1 : (⟨S2x800000, .i32⟩ : BufTy).Contents (Elt F)) :
    val_main_v10 (F := F) x0 x1 = gathered x0 x1 := by
  unfold val_main_v10 val_main_v9 val_main_v8 val_main_v7 val_main_v6 val_main_c_0 val_main_v5 val_main_v4 val_main_c val_main_v1 val_main_v0
  rfl

/-- … and reads the same destination indices. -/
theorem dst_same (x1 : (⟨S2x800000, .i32⟩ : BufTy).Contents (Elt F)) : val_main_v3 (F := F) x1 = dstIdx x1 := by
  unfold val_main_v3 val_main_v2
  rfl

/-- The reference averages its messages by the same operations: the scatter-sums, the in-degree floored at one, the quotient.
    The messages themselves stay a variable: neither scatter is opened. -/
theorem averaged_same (x0 : (⟨S50000x64, .f32⟩ : BufTy).Contents (Elt F)) (x1 : (⟨S2x800000, .i32⟩ : BufTy).Contents (Elt F)) (x2 x3 : (⟨S64x64, .f32⟩ : BufTy).Contents (Elt F)) :
    val_main_v27 (F := F) x0 x1 x2 x3 = averaged (dstIdx x1) (val_main_v15 (F := F) x0 x1 x2 x3) := by
  rw [← dst_same]
  generalize hmsg : val_main_v15 (F := F) x0 x1 x2 x3 = msg
  generalize hd : val_main_v3 (F := F) x1 = dst
  unfold val_main_v27 val_main_v18 val_main_v26 val_main_v25 val_main_v24 val_main_v22 val_main_v23 val_main_v21 val_main_v20 val_main_v19 val_main_v17 val_main_v16 val_main_cst val_main_cst_1 val_main_cst_2 val_main_cst_3
  rw [hmsg, hd]
  rfl

/-- A vector of 64 broadcast along a new leading unit axis is the vector reshaped to one row: both hold `x k` at `(0, k)`. -/
theorem row_same (x : (⟨S64, .f32⟩ : BufTy).Contents (Elt F)) :
    broadcastInDim S1x64 ![1] bcast_S64_S1x64_1 x = shapeCast S1x64 x Cert.KernelIdeal.Gen.shapeCasts_S64_S1x64 := by
  funext i
  have e1 := val_main_v46_apply (F := F) x i
  unfold val_main_v46 at e1
  rw [e1]
  refine (shapeCast_apply x Cert.KernelIdeal.Gen.shapeCasts_S64_S1x64 i (idx_main_v46 i) ?_).symm
  rewrite [Shape.rowMajor_val_two, Shape.rowMajor_val_one]
  have h0 : (i 0).val < 1 := (i 0).isLt
  show (i 1).val = (i 0).val * 64 + (i 1).val
  omega

/-- The reference's result is `result` of its arguments: the node chain is `G1` (`RefOut.out_eq`), the messages `G0`
    (`RefMsg.msg_eq`), and everything around them the kernel program's own host operations. -/
theorem reference_value
    (x0 : (⟨S50000x64, .f32⟩ : BufTy).Contents (Elt Ideal)) (x1 : (⟨S2x800000, .i32⟩ : BufTy).Contents (Elt Ideal)) (x2 x3 : (⟨S64x64, .f32⟩ : BufTy).Contents (Elt Ideal))
    (x4 x5 x6 x7 x8 : (⟨S64, .f32⟩ : BufTy).Contents (Elt Ideal)) (x9 : (⟨S64x128, .f32⟩ : BufTy).Contents (Elt Ideal)) (x10 : (⟨S64x64, .f32⟩ : BufTy).Contents (Elt Ideal)) :
    val_main_v86 (F := Ideal) x0 x1 x2 x3 x4 x5 x6 x7 x8 x9 x10 = Cert.Bridge.result x0 x1 x2 x3 x4 x5 x6 x7 x8 x9 x10 := by
  rw [Cert.ReferenceIdeal.RefOut.out_eq, averaged_same, Cert.ReferenceIdeal.RefMsg.msg_eq, gather_same]
  unfold val_main_v46 val_main_v49 val_main_v53 val_main_v75 val_main_v78 val_main_v82 val_main_v85 val_main_v11 val_main_v14
  rw [row_same x4, row_same x5, row_same x6, row_same x7, row_same x8]
  rfl

end ReferenceSide

end Cert.Bridge

end
-- ==== Proof.lean ====
/-
  The certificate: the Pallas graph layer (`forward`) against its plain jnp `reference`, equal on the extended reals.

  The kernel program gathers a row of `x` per edge on the host, sends the 800000 gathered rows through a bias-free two-layer
  perceptron in blocks of 8000 rows (region 0), averages the messages per destination node on the host, and computes every
  node's output row — two layer norms, a residual push, a second perceptron on the two normalised rows side by side — in
  blocks of 5000 rows (region 1). The reference does the same with whole arrays. Every kernel step acts inside one row, the
  blocks tile their arrays, and at the ideal instance a change of float format is the identity and a matrix product or a sum
  is its exact value whatever the order; so both end at one function of the arguments, `Cert.Bridge.result`.

  The three frames: the two kernel programs' frames are the generated ones; the reference's is its run with the result dropped.
  The idealization rewrote nothing, so `preserves` is `True`. `algebraic`: the kernel program's run with its result named
  (`Bridge.kernel_run`) beside the reference's run, whose result is the same function of arguments that agree
  (`Bridge.reference_value`).
-/
import proofs.«125230_j86045374808683_1_alg».proof.Defs
import proofs.«125230_j86045374808683_1_alg».proof.Proof.Gen.Kernel
import proofs.«125230_j86045374808683_1_alg».proof.Proof.Gen.Kernel.Skeleton
import proofs.«125230_j86045374808683_1_alg».proof.Proof.Gen.Kernel.Launch
import proofs.«125230_j86045374808683_1_alg».proof.Proof.Gen.Kernel.Points
import proofs.«125230_j86045374808683_1_alg».proof.Proof.Gen.Kernel.Frame
import proofs.«125230_j86045374808683_1_alg».proof.Proof.Gen.KernelIdeal
import proofs.«125230_j86045374808683_1_alg».proof.Proof.Gen.KernelIdeal.Skeleton
import proofs.«125230_j86045374808683_1_alg».proof.Proof.Gen.KernelIdeal.Launch
import proofs.«125230_j86045374808683_1_alg».proof.Proof.Gen.KernelIdeal.Points
import proofs.«125230_j86045374808683_1_alg».proof.Proof.Gen.KernelIdeal.Frame
import proofs.«125230_j86045374808683_1_alg».proof.Proof.Gen.ReferenceIdeal
import proofs.«125230_j86045374808683_1_alg».proof.Proof.Gen.Pre_finite_inputs
import proofs.«125230_j86045374808683_1_alg».proof.Proof.Bridge
import proofs.«125230_j86045374808683_1_alg».proof.Proof.RefRunStaged
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueS.run (F := Ideal) m ρ)

/-- Both programs end at `Bridge.result` of the arguments: the kernel program by its two regions' blocks and its host
    stretches, the reference by its operations read at an index; the arguments agree by hypothesis. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.ValueS.run (F := Ideal) m' ρ')
  obtain ⟨e0, e1, e2, e3, e4, e5, e6, e7, e8, e9, e10⟩ := hagree c
  unfold Cert.ReferenceIdeal.ValueS.res_main_v86
  rw [e0, e1, e2, e3, e4, e5, e6, e7, e8, e9, e10]
  exact Cert.Bridge.reference_value _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
